-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S64x125 : Shape := ⟨2, ![64, 125]⟩
abbrev S2048x512 : Shape := ⟨2, ![2048, 512]⟩
abbrev S512 : Shape := ⟨1, ![512]⟩
abbrev S512x125 : Shape := ⟨2, ![512, 125]⟩
abbrev S125 : Shape := ⟨1, ![125]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x125 : S_.BroadcastsInDim S512x125 (![] : Fin 0 → Fin S512x125.rank)
  reducesTo_S512x125_S_d0_1 : S512x125.ReducesTo [0, 1] S_
  bcast_S_S125 : S_.BroadcastsInDim S125 (![] : Fin 0 → Fin S125.rank)
  reducesTo_S125_S_d0 : S125.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384 32) (main_v33 : IVec S_ 1) : IVec S_ 1 :=
  let main_c_12 : IVec S_ 32 := constantI S_ 32 0#32
  let main_v34 : IVec S16384 32 := broadcastInDim S16384 ![] bcast_S_S16384 main_c_12
  let main_v35 : IVec S16384 1 := cmpi .sge main_arg1 main_v34
  let main_c_13 : IVec S_ 32 := constantI S_ 32 64#32
  let main_v36 : IVec S16384 32 := broadcastInDim S16384 ![] bcast_S_S16384 main_c_13
  let main_v37 : IVec S16384 1 := cmpi .slt main_arg1 main_v36
  let main_v38 : IVec S16384 1 := andi main_v35 main_v37
  let main_c_14 : IVec S_ 1 := constantI S_ 1 1#1
  let main_v39 : IVec S_ 1 := (fun x v => Host.reduce IntOp.andi x v reducesTo_S16384_S_d0 h_S_) main_v38 main_c_14
  let main_v40 : IVec S_ 1 := andi main_v33 main_v39
  main_v40

def fn_part1 {F : FTy → Type} [FloatOps F] (main_arg1 : IVec S16384 32) (main_arg6 : FVec F S512 .f32) (main_arg7 : FVec F S512x125 .f32) (main_arg8 : FVec F S125 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x125 .f32 := Host.absf main_arg7
  let main_cst_8 : FVec F S_ .f32 := constant S_ .f32 0x7F800000#32
  let main_v25 : FVec F S512x125 .f32 := broadcastInDim S512x125 ![] bcast_S_S512x125 main_cst_8
  let main_v26 : IVec S512x125 1 := cmpf .olt main_v24 main_v25
  let main_c_9 : IVec S_ 1 := constantI S_ 1 1#1
  let main_v27 : IVec S_ 1 := (fun x v => Host.reduce IntOp.andi x v reducesTo_S512x125_S_d0_1 h_S_) main_v26 main_c_9
  let main_v28 : IVec S_ 1 := andi main_v23 main_v27
  let main_v29 : FVec F S125 .f32 := Host.absf main_arg8
  let main_cst_10 : FVec F S_ .f32 := constant S_ .f32 0x7F800000#32
  let main_v30 : FVec F S125 .f32 := broadcastInDim S125 ![] bcast_S_S125 main_cst_10
  let main_v31 : IVec S125 1 := cmpf .olt main_v29 main_v30
  let main_c_11 : IVec S_ 1 := constantI S_ 1 1#1
  let main_v32 : IVec S_ 1 := (fun x v => Host.reduce IntOp.andi x v reducesTo_S125_S_d0 h_S_) main_v31 main_c_11
  let main_v33 : IVec S_ 1 := andi main_v28 main_v32
  fn_part2 (F := F) main_arg1 main_v33

def fn {F : FTy → Type} [FloatOps F] (main_arg0 : FVec F S16384x2048 .f32) (main_arg1 : IVec S16384 32) (main_arg2 : IVec S64x125 1) (main_arg3 : FVec F S2048x512 .f32) (main_arg4 : FVec F S512 .f32) (main_arg5 : FVec F S512 .f32) (main_arg6 : FVec F S512 .f32) (main_arg7 : FVec F S512x125 .f32) (main_arg8 : FVec F S125 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x512 .f32 := Host.absf main_arg3
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg6 main_arg7 main_arg8 main_v13 main_v16
-- ==== Kernel.lean ====
abbrev S16384x2048 : Shape := ⟨2, ![16384, 2048]⟩
abbrev S16384 : Shape := ⟨1, ![16384]⟩
abbrev S64x125 : Shape := ⟨2, ![64, 125]⟩
abbrev S2048x512 : Shape := ⟨2, ![2048, 512]⟩
abbrev S512 : Shape := ⟨1, ![512]⟩
abbrev S512x125 : Shape := ⟨2, ![512, 125]⟩
abbrev S125 : Shape := ⟨1, ![125]⟩
abbrev S16384x1 : Shape := ⟨2, ![16384, 1]⟩
abbrev S1x512 : Shape := ⟨2, ![1, 512]⟩
abbrev S1x125 : Shape := ⟨2, ![1, 125]⟩
abbrev S16384x512 : Shape := ⟨2, ![16384, 512]⟩
abbrev S16x512 : Shape := ⟨2, ![16, 512]⟩
abbrev S1024x2048 : Shape := ⟨2, ![1024, 2048]⟩
abbrev S1024x512 : Shape := ⟨2, ![1024, 512]⟩
abbrev S8x512 : Shape := ⟨2, ![8, 512]⟩
abbrev S16384x125 : Shape := ⟨2, ![16384, 125]⟩
abbrev S2048x1 : Shape := ⟨2, ![2048, 1]⟩
abbrev S2048x125 : Shape := ⟨2, ![2048, 125]⟩
abbrev S2048x64 : Shape := ⟨2, ![2048, 64]⟩

abbrev nBuf : Space → Nat
  | .hbm => 21
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S64x125, .i1⟩
  | .hbm, ⟨3, _⟩ => ⟨S2048x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x125, .f32⟩
  | .hbm, ⟨8, _⟩ => ⟨S125, .f32⟩
  | .hbm, ⟨9, _⟩ => ⟨S16384x1, .i32⟩
  | .hbm, ⟨10, _⟩ => ⟨S64x125, .bf16⟩
  | .hbm, ⟨11, _⟩ => ⟨S2048x512, .bf16⟩
  | .hbm, ⟨12, _⟩ => ⟨S512x125, .bf16⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x125, .f32⟩
  | .hbm, ⟨17, _⟩ => ⟨S16384x512, .bf16⟩
  | .hbm, ⟨18, _⟩ => ⟨S16x512, .f32⟩
  | .hbm, ⟨19, _⟩ => ⟨S16x512, .f32⟩
  | .hbm, ⟨20, _⟩ => ⟨S16384x125, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S2048x512, .bf16⟩
  | .local _ .vmem, ⟨11, _⟩ => ⟨S2048x512, .bf16⟩
  | .local _ .vmem, ⟨12, _⟩ => ⟨S16x512, .f32⟩
  | .local _ .vmem, ⟨13, _⟩ => ⟨S16x512, .f32⟩
  | .local _ .vmem, ⟨14, _⟩ => ⟨S1x512, .f32⟩
  | .local _ .vmem, ⟨15, _⟩ => ⟨S1x512, .f32⟩
  | .local _ .vmem, ⟨16, _⟩ => ⟨S512x125, .bf16⟩
  | .local _ .vmem, ⟨17, _⟩ => ⟨S1x125, .f32⟩
  | .local _ .vmem, ⟨18, _⟩ => ⟨S64x125, .bf16⟩
  | .local _ .vmem, ⟨19, _⟩ => ⟨S2048x1, .i32⟩
  | .local _ .vmem, ⟨20, _⟩ => ⟨S2048x1, .i32⟩
  | .local _ .vmem, ⟨21, _⟩ => ⟨S2048x125, .f32⟩
  | .local _ .vmem, ⟨22, _⟩ => ⟨S2048x125, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x125 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x125 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x125 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x1 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x125 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S16384_S16384x1 : S16384.ShapeCasts S16384x1
  bitsLt_bf16_f32 : FTy.bits .bf16 < FTy.bits .f32
  shapeCasts_S512_S1x512 : S512.ShapeCasts S1x512
  shapeCasts_S125_S1x125 : S125.ShapeCasts S1x125
  inb_S8x512_S8x512_0_0 : ∀ a, (![0, 0] : Fin 2 → Nat) a + S8x512.size a ≤ S8x512.size a
  h_S8x512 : 0 < S8x512.numel
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  reduces_S1024x512_S512 : S1024x512.Reduces [0] S512
  shapeCasts_S8x512_S8x512 : S8x512.ShapeCasts S8x512
  broadcasts_S1x512_S8x512 : S1x512.Broadcasts S8x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  reduces_S16x512_S512 : S16x512.Reduces [0] S512
  broadcasts_S1x512_S2048x512 : S1x512.Broadcasts S2048x512
  inb_S512x125_S512x125_0_0 : ∀ a, (![0, 0] : Fin 2 → Nat) a + S512x125.size a ≤ S512x125.size a
  h_S512x125 : 0 < S512x125.numel
  shapeCasts_S512x125_S512x125 : S512x125.ShapeCasts S512x125
  inb_S1x125_S1x125_0_0 : ∀ a, (![0, 0] : Fin 2 → Nat) a + S1x125.size a ≤ S1x125.size a
  h_S1x125 : 0 < S1x125.numel
  shapeCasts_S1x125_S1x125 : S1x125.ShapeCasts S1x125
  broadcasts_S1x125_S2048x125 : S1x125.Broadcasts S2048x125
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x64_d1_w32 : S2048x64.Iotas .tc 32 [1]
  broadcasts_S2048x1_S2048x64 : S2048x1.Broadcasts S2048x64
  natLt_1_32 : 1 < 32
  inb_S64x125_S64x125_0_0 : ∀ a, (![0, 0] : Fin 2 → Nat) a + S64x125.size a ≤ S64x125.size a
  h_S64x125 : 0 < S64x125.numel
  shapeCasts_S64x125_S64x125 : S64x125.ShapeCasts S64x125
  inb_S2048x125_S2048x125_0_0 : ∀ a, (![0, 0] : Fin 2 → Nat) a + S2048x125.size a ≤ S2048x125.size a
  h_S2048x125 : 0 < S2048x125.numel
  dot_S1024x2048_S2048x512_S1024x512_1_0_0_1_n_n_wf : DotDims.WF S1024x2048 S2048x512 S1024x512 [1] [0] [0] [1] [] []
  dot_S2048x512_S512x125_S2048x125_1_0_0_1_n_n_wf : DotDims.WF S2048x512 S512x125 S2048x125 [1] [0] [0] [1] [] []
  dot_S2048x64_S64x125_S2048x125_1_0_0_1_n_n_wf : DotDims.WF S2048x64 S64x125 S2048x125 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .bf16 = 32 ∨ (Rect.block (s := S16384x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S16x512.size a
  hwx0_4 : ∀ i : grid0.Coords, EltTy.bits .f32 = 32 ∨ (Rect.block (s := S16x512) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S16x512.size a
  hwx0_5 : ∀ i : grid0.Coords, EltTy.bits .f32 = 32 ∨ (Rect.block (s := S16x512) S8x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .bf16 = 32 ∨ (Rect.block (s := S16384x512) S2048x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .f32 = 32 ∨ (Rect.block (s := S16x512) S16x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x512.size a
  hwx1_2 : ∀ i : grid1.Coords, EltTy.bits .f32 = 32 ∨ (Rect.block (s := S16x512) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x125.size a ≤ S512x125.size a
  hwx1_5 : ∀ i : grid1.Coords, EltTy.bits .bf16 = 32 ∨ (Rect.block (s := S512x125) S512x125.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x125.size a ≤ S1x125.size a
  hwx1_6 : ∀ i : grid1.Coords, EltTy.bits .f32 = 32 ∨ (Rect.block (s := S1x125) S1x125.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x125.size a ≤ S64x125.size a
  hwx1_7 : ∀ i : grid1.Coords, EltTy.bits .bf16 = 32 ∨ (Rect.block (s := S64x125) S64x125.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x1.size a ≤ S16384x1.size a
  hwx1_8 : ∀ i : grid1.Coords, EltTy.bits .i32 = 32 ∨ (Rect.block (s := S16384x1) S2048x1.size (cc1_transform_8 i) (hinb1_8 i)).WholeWords (EltTy.packing .i32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x125.size a ≤ S16384x125.size a
  hwx1_9 : ∀ i : grid1.Coords, EltTy.bits .f32 = 32 ∨ (Rect.block (s := S16384x125) S2048x125.size (cc1_transform_9 i) (hinb1_9 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S2048x512_S512x125_S2048x125_1_0_0_1_n_n : DotDims S2048x512 S512x125 S2048x125 where
  lhsContracting := [1]
  rhsContracting := [0]
  lhsNonContracting := [0]
  rhsNonContracting := [1]
  lhsBatch := []
  rhsBatch := []
  wf := dot_S2048x512_S512x125_S2048x125_1_0_0_1_n_n_wf
def dot_S2048x64_S64x125_S2048x125_1_0_0_1_n_n : DotDims S2048x64 S64x125 S2048x125 where
  lhsContracting := [1]
  rhsContracting := [0]
  lhsNonContracting := [0]
  rhsNonContracting := [1]
  lhsBatch := []
  rhsBatch := []
  wf := dot_S2048x64_S64x125_S2048x125_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S8x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S16x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x125.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x125.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S64x125.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0) S2048x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v9) S2048x125.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S16384 : Shape := ⟨1, ![16384]⟩
abbrev S64x125 : Shape := ⟨2, ![64, 125]⟩
abbrev S2048x512 : Shape := ⟨2, ![2048, 512]⟩
abbrev S512 : Shape := ⟨1, ![512]⟩
abbrev S512x125 : Shape := ⟨2, ![512, 125]⟩
abbrev S125 : Shape := ⟨1, ![125]⟩
abbrev S16384x512 : Shape := ⟨2, ![16384, 512]⟩
abbrev S1x512 : Shape := ⟨2, ![1, 512]⟩
abbrev S_ : Shape := ⟨0, ![]⟩
abbrev S16384x125 : Shape := ⟨2, ![16384, 125]⟩
abbrev S1x125 : Shape := ⟨2, ![1, 125]⟩
abbrev S16384x1 : Shape := ⟨2, ![16384, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S64x125, .i1⟩
  | .hbm, ⟨3, _⟩ => ⟨S2048x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x125, .f32⟩
  | .hbm, ⟨8, _⟩ => ⟨S125, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S1x512, .f32⟩
  | .hbm, ⟨38, _⟩ => ⟨S16384x512, .f32⟩
  | .hbm, ⟨39, _⟩ => ⟨S16384x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x125, .f32⟩
  | .hbm, ⟨47, _⟩ => ⟨S1x125, .f32⟩
  | .hbm, ⟨48, _⟩ => ⟨S16384x125, .f32⟩
  | .hbm, ⟨49, _⟩ => ⟨S16384x125, .f32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S16384x125, .i1⟩
  | .hbm, ⟨59, _⟩ => ⟨S_, .f32⟩
  | .hbm, ⟨60, _⟩ => ⟨S16384x125, .f32⟩
  | .hbm, ⟨61, _⟩ => ⟨S16384x125, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_call1_v0 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S512_d0 : S16384x512.ReducesTo [0] S512
  h_S_ : 0 < S_.numel
  bcast_S_S512 : S_.BroadcastsInDim S512 (![] : Fin 0 → Fin S512.rank)
  bcast_S_S16384x512 : S_.BroadcastsInDim S16384x512 (![] : Fin 0 → Fin S16384x512.rank)
  bcast_S125_S1x125_1 : S125.BroadcastsInDim S1x125 (![1] : Fin 1 → Fin S1x125.rank)
  bcast_S1x125_S16384x125_0_1 : S1x125.BroadcastsInDim S16384x125 (![0, 1] : Fin 2 → Fin S16384x125.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x125 : S_.BroadcastsInDim S16384x125 (![] : Fin 0 → Fin S16384x125.rank)
  dot_S16384x2048_S2048x512_S16384x512_1_0_0_1_n_n_wf : DotDims.WF S16384x2048 S2048x512 S16384x512 [1] [0] [0] [1] [] []
  dot_S16384x512_S512x125_S16384x125_1_0_0_1_n_n_wf : DotDims.WF S16384x512 S512x125 S16384x125 [1] [0] [0] [1] [] []
  gather_S64x125_S16384x1_S16384x125_1_0_n_n_0_1_1125_wf : GatherDims.WF S64x125 S16384x1 S16384x125 [1] [0] [] [0] [] 1 ![1, 125]

variable [Facts₀]

def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def dot_S16384x512_S512x125_S16384x125_1_0_0_1_n_n : DotDims S16384x512 S512x125 S16384x125 where
  lhsContracting := [1]
  rhsContracting := [0]
  lhsNonContracting := [0]
  rhsNonContracting := [1]
  lhsBatch := []
  rhsBatch := []
  wf := dot_S16384x512_S512x125_S16384x125_1_0_0_1_n_n_wf
def gather_S64x125_S16384x1_S16384x125_1_0_n_n_0_1_1125 : GatherDims S64x125 S16384x1 S16384x125 where
  offsetDims := [1]
  collapsedSliceDims := [0]
  operandBatchingDims := []
  startIndicesBatchingDims := []
  startIndexMap := [0]
  indexVectorDim := 1
  sliceSizes := ![1, 125]
  wf := gather_S64x125_S16384x1_S16384x125_1_0_n_n_0_1_1125_wf

class Facts : Prop extends Facts₀ where

variable [Facts]
-- ==== Proof.Spec.lean ====
/-
  The two programs' results as functions of the argument arrays, index by index, over the extended reals.

  Both programs compute a two-layer classifier with batch normalisation between the layers and a per-row mask:
    h[r,k]   = (Σ_d x[r,d]·W[d,k]) + b[k]                         (the first linear layer, 16384 rows, 512 columns)
    batch statistics of h over the 16384 rows, per column k
    a[r,k]   = max(normalised h[r,k]·γ[k] + β[k], 0)
    out[r,j] = −100 where the mask table's row for category cate[r] is set at column j, else (Σ_k a[r,k]·Wc[k,j]) + bc[j].

  They differ in how the statistics are taken.  The kernel first forms, for each half of the batch, the column sums and the
  column sums of squares, each held in 8 equal rows of a 16-row table; it then adds the 16 rows and scales by 1/8, takes
  mean = total/16384 and variance = max(E[h²] − mean², 0), and folds the normalisation into one affine map h·scale + shift.
  The reference takes mean = Σ h / 16384 and variance = Σ (h − mean)² / 16384 and normalises (h − mean)·rsqrt(var+ε)·γ + β.
  The kernel selects the mask row by a sum over the 64 categories of an indicator times the table; the reference reads the
  row directly (a negative category wrapped by +64, the result clamped into the table).
-/
import Idealize.ShloMosaic.PureOps.Ideal

noncomputable section

namespace Cert.Spec

open Idealize.ShloMosaic

/-! ## The literals both programs carry, as the extended reals their words denote -/

/-- 0.125, the reciprocal of the 8 equal rows a half-batch's sums are held in. -/
def cEighth : EReal := Ideal.ofBits .f32 0x3E000000#32
/-- 2⁻¹⁴ = 1/16384, the reciprocal of the batch size. -/
def cInvN : EReal := Ideal.ofBits .f32 0x38800000#32
/-- 16384, the batch size. -/
def cN : EReal := Ideal.ofBits .f32 0x46800000#32
/-- The variance's regulariser, the f32 nearest 1e-5 (the same word in both programs). -/
def cEps : EReal := Ideal.ofBits .f32 0x3727C5AC#32
/-- The zero word. -/
def cZero : EReal := Ideal.ofBits .f32 0x00000000#32
/-- 0.5, the threshold the kernel compares its 0/1-valued row mask with. -/
def cHalf : EReal := Ideal.ofBits .f32 0x3F000000#32
/-- −100, the value written where the mask is set. -/
def cFill : EReal := Ideal.ofBits .f32 0xC2C80000#32

/-! ## The first linear layer -/

/-- h[r,k] = (Σ_d x[r,d]·W[d,k]) + b[k]. -/
def fc (x : Fin 16384 → Fin 2048 → EReal) (W : Fin 2048 → Fin 512 → EReal) (b : Fin 512 → EReal)
    (r : Fin 16384) (k : Fin 512) : EReal :=
  (∑ d : Fin 2048, x r d * W d k) + b k

/-! ## The kernel's side -/

/-- Row `q` of the 16-row partial-sum tables belongs to batch half `q / 8`; that half's rows are visited in 8 blocks
    of 1024: this is row `r` of block `i` of that half. -/
def row (q : Fin 16) (i : Fin 8) (r : Fin 1024) : Fin 16384 :=
  ⟨(q.val / 8) * 8192 + i.val * 1024 + r.val, by have := q.isLt; have := i.isLt; have := r.isLt; omega⟩

/-- Entry (q,k) of the partial-sum table: the sum of column k of `h` over the batch half of row `q`, block by block. -/
def psum (h : Fin 16384 → Fin 512 → EReal) (q : Fin 16) (k : Fin 512) : EReal :=
  ∑ i : Fin 8, ∑ r : Fin 1024, h (row q i r) k

/-- Entry (q,k) of the partial table of sums of squares. -/
def psumsq (h : Fin 16384 → Fin 512 → EReal) (q : Fin 16) (k : Fin 512) : EReal :=
  ∑ i : Fin 8, ∑ r : Fin 1024, h (row q i r) k * h (row q i r) k

/-- The 16 rows of a partial table added, times 1/8: each half's sum occurs in 8 equal rows. -/
def tot (S : Fin 16 → Fin 512 → EReal) (k : Fin 512) : EReal := (∑ q : Fin 16, S q k) * cEighth
def kmean (S : Fin 16 → Fin 512 → EReal) (k : Fin 512) : EReal := tot S k * cInvN
/-- E[h²] − mean², cut off below at zero. -/
def kvar (S Q : Fin 16 → Fin 512 → EReal) (k : Fin 512) : EReal :=
  max (tot Q k * cInvN - kmean S k * kmean S k) cZero
def kscale (S Q : Fin 16 → Fin 512 → EReal) (g : Fin 512 → EReal) (k : Fin 512) : EReal :=
  Ideal.rsqrt (kvar S Q k + cEps) * g k
def kshift (S Q : Fin 16 → Fin 512 → EReal) (g be : Fin 512 → EReal) (k : Fin 512) : EReal :=
  be k - kmean S k * kscale S Q g k
/-- The normalised, rectified activation, through the folded affine map. -/
def kact (H : Fin 16384 → Fin 512 → EReal) (S Q : Fin 16 → Fin 512 → EReal) (g be : Fin 512 → EReal)
    (r : Fin 16384) (k : Fin 512) : EReal :=
  max (H r k * kscale S Q g k + kshift S Q g be k) cZero
def klogits (H : Fin 16384 → Fin 512 → EReal) (S Q : Fin 16 → Fin 512 → EReal) (g be : Fin 512 → EReal)
    (Wc : Fin 512 → Fin 125 → EReal) (bc : Fin 125 → EReal) (r : Fin 16384) (j : Fin 125) : EReal :=
  (∑ k : Fin 512, kact H S Q g be r k * Wc k j) + bc j
/-- The indicator that category `q` is row `r`'s category word. -/
def hot (ct : Fin 16384 → BitVec 32) (r : Fin 16384) (q : Fin 64) : EReal :=
  if BitVec.ofNat 32 q.val = ct r then 1 else 0
/-- The kernel's row mask: Σ_q indicator(q)·table[q,j]. -/
def rowMask (ct : Fin 16384 → BitVec 32) (mk : Fin 64 → Fin 125 → EReal) (r : Fin 16384) (j : Fin 125) : EReal :=
  ∑ q : Fin 64, hot ct r q * mk q j
/-- What the kernel's second stage writes at (r,j), as a function of the arrays it is given: the stored first layer `H`,
    the two partial tables `S`, `Q`, γ, β, the second layer, the mask table as 0/1 numbers, and the category words. -/
def kernelOut (H : Fin 16384 → Fin 512 → EReal) (S Q : Fin 16 → Fin 512 → EReal) (g be : Fin 512 → EReal)
    (Wc : Fin 512 → Fin 125 → EReal) (bc : Fin 125 → EReal) (mk : Fin 64 → Fin 125 → EReal)
    (ct : Fin 16384 → BitVec 32) (r : Fin 16384) (j : Fin 125) : EReal :=
  if cHalf < rowMask ct mk r j then cFill else klogits H S Q g be Wc bc r j

/-- A mask bit as a number. -/
def maskNum (m2 : Fin 64 → Fin 125 → BitVec 1) (q : Fin 64) (j : Fin 125) : EReal := ((m2 q j).toNat : ℝ)

/-- The whole kernel program's result at (r,j) as a function of the nine arguments. -/
def kernelFn (x : Fin 16384 → Fin 2048 → EReal) (W : Fin 2048 → Fin 512 → EReal) (b g be : Fin 512 → EReal)
    (Wc : Fin 512 → Fin 125 → EReal) (bc : Fin 125 → EReal) (m2 : Fin 64 → Fin 125 → BitVec 1)
    (ct : Fin 16384 → BitVec 32) (r : Fin 16384) (j : Fin 125) : EReal :=
  kernelOut (fc x W b) (psum (fc x W b)) (psumsq (fc x W b)) g be Wc bc (maskNum m2) ct r j

/-! ## The reference's side -/

def rmean (h : Fin 16384 → Fin 512 → EReal) (k : Fin 512) : EReal :=
  Ideal.div (cZero + ∑ r : Fin 16384, h r k) cN
def rvar (h : Fin 16384 → Fin 512 → EReal) (k : Fin 512) : EReal :=
  Ideal.div (cZero + ∑ r : Fin 16384, (h r k - rmean h k) * (h r k - rmean h k)) cN
def ract (h : Fin 16384 → Fin 512 → EReal) (g be : Fin 512 → EReal) (r : Fin 16384) (k : Fin 512) : EReal :=
  max ((h r k - rmean h k) * Ideal.rsqrt (rvar h k + cEps) * g k + be k) cZero
def rlogits (h : Fin 16384 → Fin 512 → EReal) (g be : Fin 512 → EReal) (Wc : Fin 512 → Fin 125 → EReal)
    (bc : Fin 125 → EReal) (r : Fin 16384) (j : Fin 125) : EReal :=
  (∑ k : Fin 512, ract h g be r k * Wc k j) + bc j
/-- The mask-table row the reference reads for a category word: a negative word wrapped by +64, then the result, read
    signed, clamped into 0..63. -/
def refRow (w : BitVec 32) : Fin 64 :=
  ⟨(max 0 (min 63 (if w.toInt < 0 then (w + 64#32).toInt else w.toInt))).toNat, by omega⟩
/-- The whole reference program's result at (r,j) as a function of the nine arguments. -/
def refFn (x : Fin 16384 → Fin 2048 → EReal) (W : Fin 2048 → Fin 512 → EReal) (b g be : Fin 512 → EReal)
    (Wc : Fin 512 → Fin 125 → EReal) (bc : Fin 125 → EReal) (m2 : Fin 64 → Fin 125 → BitVec 1)
    (ct : Fin 16384 → BitVec 32) (r : Fin 16384) (j : Fin 125) : EReal :=
  if m2 (refRow (ct r)) j = 1#1 then cFill else rlogits (fc x W b) g be Wc bc r j

end Cert.Spec

end
-- ==== Proof.Region0.lean ====
import proofs.«426521_j8065948582254_3_alg».proof.Proof.Gen.KernelIdeal.Frame
import proofs.«426521_j8065948582254_3_alg».proof.Proof.Spec
import Idealize.ShloMosaic.Lib.ValueIdx
import Idealize.ShloMosaic.Lib.Pipeline.Value
import Idealize.ShloMosaic.PureOps.Ideal.Laws
import Idealize.ShloMosaic.Lib.Tactic

set_option maxRecDepth 16384

noncomputable section

namespace Cert.Region0

open Idealize.ShloMosaic Idealize.ShloMosaic.TcCoe Idealize.ShloMosaic.ValueIdx Idealize.SL.Sem
open Cert.KernelIdeal Cert.KernelIdeal.Gen Cert.Spec

/-! ## What each case of the body leaves in each output's buffer, as a payload of the blocks it reads -/

section Pieces
variable {F : FTy → Type} [FloatOps F]

/-- The zero offsets of a whole block, as a function. -/
private theorem hz2 : (![0, 0] : Fin 2 → Nat) = fun _ => 0 := funext fun a => by fin_cases a <;> rfl

/-- At a point that resets, the body leaves in output 3's buffer this payload of the three input blocks. -/
private theorem piece_A_3 (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S8x512 .f32) (harg6 : arg6.IsWhole) (arg7 : Memref sig .tc .vmem S8x512 .f32) (harg7 : arg7.IsWhole) (hc0 : cond0_0 i)
    (x0 : Vec F S1024x2048 .f32) (x1 : Vec F S2048x512 .bf16) (x2 : Vec F S1x512 .f32) :
    out0_A_3 c i arg2 harg2 arg3 harg3 arg4 harg4 arg5 harg5 arg6 harg6 arg7 harg7 hc0 x0 x1 x2 = k0_pay4 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg2.read_unread, harg3.read_unread, harg4.read_unread, harg6.read_unread, harg7.read_unread, View.ld_unit_zero (S := S1024x2048) hz2, View.ld_unit_zero (S := S2048x512) hz2, View.ld_unit_zero (S := S1x512) hz2, View.ld_unit_zero (S := S8x512) hz2, View.readCov_unit_zero (S := S8x512) _ hz2]

/-- At a point that resets, the body leaves in output 4's buffer this payload of the three input blocks. -/
private theorem piece_A_4 (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S8x512 .f32) (harg6 : arg6.IsWhole) (arg7 : Memref sig .tc .vmem S8x512 .f32) (harg7 : arg7.IsWhole) (hc0 : cond0_0 i)
    (x0 : Vec F S1024x2048 .f32) (x1 : Vec F S2048x512 .bf16) (x2 : Vec F S1x512 .f32) :
    out0_A_4 c i arg2 harg2 arg3 harg3 arg4 harg4 arg5 harg5 arg6 harg6 arg7 harg7 hc0 x0 x1 x2 = k0_pay6 x0 x1 x2 (k0_pay1 (F := F)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S8x512) hz2]
  simp only [View.readAt_eq_ld, harg2.read_unread, harg3.read_unread, harg4.read_unread, harg6.read_unread, harg7.read_unread, View.ld_unit_zero (S := S1024x2048) hz2, View.ld_unit_zero (S := S2048x512) hz2, View.ld_unit_zero (S := S1x512) hz2, View.ld_unit_zero (S := S8x512) hz2, View.readCov_unit_zero (S := S8x512) _ hz2]

/-- At a point that resets, the body leaves in output 5's buffer this payload of the three input blocks. -/
private theorem piece_A_5 (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S8x512 .f32) (harg6 : arg6.IsWhole) (arg7 : Memref sig .tc .vmem S8x512 .f32) (harg7 : arg7.IsWhole) (hc0 : cond0_0 i)
    (x0 : Vec F S1024x2048 .f32) (x1 : Vec F S2048x512 .bf16) (x2 : Vec F S1x512 .f32) :
    out0_A_5 c i arg2 harg2 arg3 harg3 arg4 harg4 arg5 harg5 arg6 harg6 arg7 harg7 hc0 x0 x1 x2 = k0_pay7 x0 x1 x2 (k0_pay2 (F := F)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S8x512) hz2]
  simp only [View.readAt_eq_ld, harg2.read_unread, harg3.read_unread, harg4.read_unread, harg6.read_unread, harg7.read_unread, View.ld_unit_zero (S := S1024x2048) hz2, View.ld_unit_zero (S := S2048x512) hz2, View.ld_unit_zero (S := S1x512) hz2, View.ld_unit_zero (S := S8x512) hz2, View.readCov_unit_zero (S := S8x512) _ hz2]

/-- At a point that accumulates, the body leaves in output 3's buffer this payload of the three input blocks and of what
    the buffers of the two sums held. -/
private theorem piece_B_3 (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S8x512 .f32) (harg6 : arg6.IsWhole) (arg7 : Memref sig .tc .vmem S8x512 .f32) (harg7 : arg7.IsWhole) (hc0 : ¬cond0_0 i)
    (x0 : Vec F S1024x2048 .f32) (x1 : Vec F S2048x512 .bf16) (x2 : Vec F S1x512 .f32) (xo4 xo5 : Vec F S8x512 .f32) :
    out0_B_3 c i arg2 harg2 arg3 harg3 arg4 harg4 arg5 harg5 arg6 harg6 arg7 harg7 hc0 x0 x1 x2 xo4 xo5 = k0_pay4 x0 x1 x2 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  sl_unfold_words
  rw [View.canon_unit_zero hz2]
  simp only [View.readAt_eq_ld, harg2.read_unread, harg3.read_unread, harg4.read_unread, harg6.read_unread, harg7.read_unread, View.ld_unit_zero (S := S1024x2048) hz2, View.ld_unit_zero (S := S2048x512) hz2, View.ld_unit_zero (S := S1x512) hz2, View.ld_unit_zero (S := S8x512) hz2, View.readCov_unit_zero (S := S8x512) _ hz2]

/-- At a point that accumulates, the body leaves in output 4's buffer this payload of the three input blocks and of what
    the buffers of the two sums held. -/
private theorem piece_B_4 (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S8x512 .f32) (harg6 : arg6.IsWhole) (arg7 : Memref sig .tc .vmem S8x512 .f32) (harg7 : arg7.IsWhole) (hc0 : ¬cond0_0 i)
    (x0 : Vec F S1024x2048 .f32) (x1 : Vec F S2048x512 .bf16) (x2 : Vec F S1x512 .f32) (xo4 xo5 : Vec F S8x512 .f32) :
    out0_B_4 c i arg2 harg2 arg3 harg3 arg4 harg4 arg5 harg5 arg6 harg6 arg7 harg7 hc0 x0 x1 x2 xo4 xo5 = k0_pay6 x0 x1 x2 xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  sl_unfold_words
  rw [View.canon_unit_zero hz2]
  simp only [View.readAt_eq_ld, harg2.read_unread, harg3.read_unread, harg4.read_unread, harg6.read_unread, harg7.read_unread, View.ld_unit_zero (S := S1024x2048) hz2, View.ld_unit_zero (S := S2048x512) hz2, View.ld_unit_zero (S := S1x512) hz2, View.ld_unit_zero (S := S8x512) hz2, View.readCov_unit_zero (S := S8x512) _ hz2]

/-- At a point that accumulates, the body leaves in output 5's buffer this payload of the three input blocks and of what
    the buffers of the two sums held. -/
private theorem piece_B_5 (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S8x512 .f32) (harg6 : arg6.IsWhole) (arg7 : Memref sig .tc .vmem S8x512 .f32) (harg7 : arg7.IsWhole) (hc0 : ¬cond0_0 i)
    (x0 : Vec F S1024x2048 .f32) (x1 : Vec F S2048x512 .bf16) (x2 : Vec F S1x512 .f32) (xo4 xo5 : Vec F S8x512 .f32) :
    out0_B_5 c i arg2 harg2 arg3 harg3 arg4 harg4 arg5 harg5 arg6 harg6 arg7 harg7 hc0 x0 x1 x2 xo4 xo5 = k0_pay7 x0 x1 x2 xo5 := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  rw [View.canon_unit_zero hz2]
  simp only [View.readAt_eq_ld, harg2.read_unread, harg3.read_unread, harg4.read_unread, harg6.read_unread, harg7.read_unread, View.ld_unit_zero (S := S1024x2048) hz2, View.ld_unit_zero (S := S2048x512) hz2, View.ld_unit_zero (S := S1x512) hz2, View.ld_unit_zero (S := S8x512) hz2, View.readCov_unit_zero (S := S8x512) _ hz2]

end Pieces

section Payloads

/-! ## The payloads read at an index, over the extended reals -/

private theorem lhs_D0_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
private theorem lhs_D0_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
private theorem rhs_D0_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
private theorem rhs_D0_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The block product into the zero accumulator, at (r, k): the sum over the 2048 contracted coordinates. -/
private theorem matmul_at (lhs : FVec Ideal S1024x2048 .bf16) (rhs : FVec Ideal S2048x512 .bf16) (r : Fin 1024) (k : Fin 512) :
    matmul (F := Ideal) dot_S1024x2048_S2048x512_S1024x512_1_0_0_1_n_n none lhs rhs (constant (F := Ideal) S1024x512 .f32 0x00000000#32) (ix2 r k)
      = ∑ d : Fin 2048, lhs (ix2 r d) * rhs (ix2 d k) := by
  simp only [matmul]
  rw [Ideal.matmul_constant_zero_apply, ← Equiv.sum_comp (contrEquiv1 dot_S1024x2048_S2048x512_S1024x512_1_0_0_1_n_n 2048 rfl rfl).symm]
  refine Finset.sum_congr rfl fun d _ => ?_
  have hk := contrEquiv1_symm_val dot_S1024x2048_S2048x512_S1024x512_1_0_0_1_n_n 2048 rfl rfl d
  have el : dot_S1024x2048_S2048x512_S1024x512_1_0_0_1_n_n.lhsIdx (ix2 r k) ((contrEquiv1 dot_S1024x2048_S2048x512_S1024x512_1_0_0_1_n_n 2048 rfl rfl).symm d) = ix2 r d := funext fun a => Fin.ext (by
    match a with
    | ⟨0, _⟩ => exact lhs_D0_0 _ _
    | ⟨1, _⟩ => exact (lhs_D0_1 _ _).trans hk)
  have er : dot_S1024x2048_S2048x512_S1024x512_1_0_0_1_n_n.rhsIdx (ix2 r k) ((contrEquiv1 dot_S1024x2048_S2048x512_S1024x512_1_0_0_1_n_n 2048 rfl rfl).symm d) = ix2 d k := funext fun a => Fin.ext (by
    match a with
    | ⟨0, _⟩ => exact (rhs_D0_0 _ _).trans hk
    | ⟨1, _⟩ => exact rhs_D0_1 _ _)
  rw [el, er]

/-- A row [1,512] broadcast down R rows reads, at (r, k), the row at (0, k). -/
private theorem bcast_row_at {R : Nat} (v : FVec Ideal S1x512 .f32) (h : S1x512.Broadcasts (⟨2, ![R, 512]⟩ : Shape)) (r : Fin R) (k : Fin 512) :
    broadcastTo (⟨2, ![R, 512]⟩ : Shape) v h (ix2 r k) = v (ix2 (0 : Fin 1) k) :=
  broadcastTo_apply v h (ix2 r k) (ix2 (0 : Fin 1) k) (fun a => by
    match a with
    | ⟨0, _⟩ => rfl
    | ⟨1, _⟩ => rfl)

/-- The sum down the 1024 rows of a block, at column k. -/
private theorem colsum_at (src : FVec Ideal S1024x512 .f32) (hφ : FKind.Formats .f32) (hacc : (0x00000000#32 : BitVec 32) = 0x00000000#32) (k : Fin 512) :
    multiReduction (F := Ideal) .add [0] S512 src 0x00000000#32 reduces_S1024x512_S512 hφ hacc (ix1 k) = ∑ r : Fin 1024, src (ix2 r k) := by
  refine (Ideal.multiReduction_add_single src 0x00000000#32 reduces_S1024x512_S512 hφ hacc (ix1 k)).trans ?_
  refine Finset.sum_congr rfl fun r _ => congrArg src (funext fun a => Fin.ext ?_)
  match a with
  | ⟨0, _⟩ => rfl
  | ⟨1, _⟩ => rfl

/-- A [512] vector recast as one row [1,512] reads, at (0, k), the vector at k. -/
private theorem row_of_vec_at (v : FVec Ideal S512 .f32) (h : S512.ShapeCasts S1x512) (k : Fin 512) :
    shapeCast S1x512 v h (ix2 (0 : Fin 1) k) = v (ix1 k) := by
  refine (shapeCast_addUnit_apply ![512] v h (ix2 (0 : Fin 1) k)).trans (congrArg v (funext fun a => ?_))
  match a with
  | ⟨0, _⟩ => rfl

end Payloads

section PayloadValues

/-- The first layer's block at (r, k): the product's sum plus the bias row's entry. -/
private theorem pay3_at (x0 : Vec Ideal S1024x2048 .f32) (x1 : Vec Ideal S2048x512 .bf16) (x2 : Vec Ideal S1x512 .f32) (r : Fin 1024) (k : Fin 512) :
    k0_pay3 (F := Ideal) x0 x1 x2 (ix2 r k) = (∑ d : Fin 2048, x0 (ix2 r d) * x1 (ix2 d k)) + x2 (ix2 (0 : Fin 1) k) := by
  unfold k0_pay3
  refine congrArg₂ (· + ·) ?_ ?_
  · refine (matmul_at _ _ r k).trans ?_
    rw [shapeCast_self]
    rfl
  · refine (bcast_row_at _ _ r k).trans ?_
    rw [shapeCast_self]

/-- What is stored as the first output's block is, over the extended reals, the same block. -/
private theorem pay4_at (x0 : Vec Ideal S1024x2048 .f32) (x1 : Vec Ideal S2048x512 .bf16) (x2 : Vec Ideal S1x512 .f32) (r : Fin 1024) (k : Fin 512) :
    k0_pay4 (F := Ideal) x0 x1 x2 (ix2 r k) = (∑ d : Fin 2048, x0 (ix2 r d) * x1 (ix2 d k)) + x2 (ix2 (0 : Fin 1) k) :=
  pay3_at x0 x1 x2 r k

/-- The running column sums after a point: what the buffer held plus the block's column sum, in each of the 8 rows. -/
private theorem pay6_at (x0 : Vec Ideal S1024x2048 .f32) (x1 : Vec Ideal S2048x512 .bf16) (x2 : Vec Ideal S1x512 .f32) (v20 : Vec Ideal S8x512 .f32) (b : Fin 8) (k : Fin 512) :
    k0_pay6 (F := Ideal) x0 x1 x2 v20 (ix2 b k) = v20 (ix2 b k) + ∑ r : Fin 1024, k0_pay3 (F := Ideal) x0 x1 x2 (ix2 r k) := by
  unfold k0_pay6
  refine congrArg₂ (· + ·) ?_ ?_
  · rw [shapeCast_self]
  · refine (bcast_row_at _ _ b k).trans ?_
    rw [shapeCast_self]
    refine (row_of_vec_at _ _ k).trans ?_
    exact colsum_at _ _ _ k

/-- The running column sums of squares after a point. -/
private theorem pay7_at (x0 : Vec Ideal S1024x2048 .f32) (x1 : Vec Ideal S2048x512 .bf16) (x2 : Vec Ideal S1x512 .f32) (v26 : Vec Ideal S8x512 .f32) (b : Fin 8) (k : Fin 512) :
    k0_pay7 (F := Ideal) x0 x1 x2 v26 (ix2 b k)
      = v26 (ix2 b k) + ∑ r : Fin 1024, k0_pay3 (F := Ideal) x0 x1 x2 (ix2 r k) * k0_pay3 (F := Ideal) x0 x1 x2 (ix2 r k) := by
  unfold k0_pay7
  refine congrArg₂ (· + ·) ?_ ?_
  · rw [shapeCast_self]
  · refine (bcast_row_at _ _ b k).trans ?_
    rw [shapeCast_self]
    refine (row_of_vec_at _ _ k).trans ?_
    exact colsum_at _ _ _ k

/-- The reset blocks are zero. -/
private theorem pay1_at (b : Fin 8) (k : Fin 512) : k0_pay1 (F := Ideal) (ix2 b k) = 0 := Ideal.ofBits_zero_f32
private theorem pay2_at (b : Fin 8) (k : Fin 512) : k0_pay2 (F := Ideal) (ix2 b k) = 0 := Ideal.ofBits_zero_f32

end PayloadValues

/-! ## The first stage's arrays -/

variable (V : (c : Dev nD) → (b : Ref sig .tc) → Buf (Elt Ideal) ((c : Thread nD τ).loc b))

/-- The batch of inputs as the first stage finds it. -/
def xin (c : Dev nD) (r : Fin 16384) (d : Fin 2048) : EReal := V c main_arg0 (ix2 r d)
/-- The first layer's weights as the first stage finds them. -/
def win (c : Dev nD) (d : Fin 2048) (k : Fin 512) : EReal := V c main_v2 (ix2 d k)
/-- The first layer's bias row as the first stage finds it. -/
def bin (c : Dev nD) (k : Fin 512) : EReal := V c main_v4 (ix2 (0 : Fin 1) k)

section Blocks

/-- Where each window's block sits at grid point t: the input rows and the first output move with the point, the
    weights and the bias stay, the two sums move with the point's half of the batch. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The three input blocks at a point, at their literal types. -/
private abbrev xblk (c : Dev nD) (t : Fin cfg0.N) : Vec Ideal S1024x2048 .f32 := iblk0 V c 0 t
private abbrev wblk (c : Dev nD) (t : Fin cfg0.N) : Vec Ideal S2048x512 .bf16 := iblk0 V c 1 t
private abbrev bblk (c : Dev nD) (t : Fin cfg0.N) : Vec Ideal S1x512 .f32 := iblk0 V c 2 t

/-- The input block at point t holds rows 1024·t … of the batch. -/
private theorem xblk_at (c : Dev nD) (t : Fin cfg0.N) (r : Fin 1024) (d : Fin 2048) (h : t.val * 1024 + r.val < 16384) :
    xblk V c t (ix2 r d) = xin V c ⟨t.val * 1024 + r.val, h⟩ d := by
  obtain ⟨e0, e1, -⟩ := idx_facts t
  unfold xin
  show V c main_arg0 (((cfg0.win 0).blk t).view.emb (ix2 r d)) = V c main_arg0 _
  refine congrArg (V c main_arg0) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 2048 + 1 * d.val = d.val; rw [e1]; omega

/-- The weight block at every point is the whole weight array. -/
private theorem wblk_at (c : Dev nD) (t : Fin cfg0.N) (d : Fin 2048) (k : Fin 512) :
    wblk V c t (ix2 d k) = win V c d k := by
  obtain ⟨-, -, e0, e1, -⟩ := idx_facts t
  unfold win
  show V c main_v2 (((cfg0.win 1).blk t).view.emb (ix2 d k)) = V c main_v2 _
  refine congrArg (V c main_v2) (funext fun a => Fin.ext ?_)
  match a with
  | ⟨0, _⟩ => show win0_1.index t (0 : Fin 2) * 2048 + 1 * d.val = d.val; rw [e0]; omega
  | ⟨1, _⟩ => show win0_1.index t (1 : Fin 2) * 512 + 1 * k.val = k.val; rw [e1]; omega

/-- The bias block at every point is the whole bias row. -/
private theorem bblk_at (c : Dev nD) (t : Fin cfg0.N) (k : Fin 512) :
    bblk V c t (ix2 (0 : Fin 1) k) = bin V c k := by
  obtain ⟨-, -, -, -, e0, e1, -⟩ := idx_facts t
  unfold bin
  show V c main_v4 (((cfg0.win 2).blk t).view.emb (ix2 (0 : Fin 1) k)) = V c main_v4 _
  refine congrArg (V c main_v4) (funext fun a => Fin.ext ?_)
  match a with
  | ⟨0, _⟩ => show win0_2.index t (0 : Fin 2) * 1 + 1 * 0 = 0; rw [e0]
  | ⟨1, _⟩ => show win0_2.index t (1 : Fin 2) * 512 + 1 * k.val = k.val; rw [e1]; omega

end Blocks

section Invariant

/-- Row p of the first layer, as a function of every natural number (zero past the batch, never read there). -/
private def hrow (c : Dev nD) (p : ℕ) (k : Fin 512) : EReal :=
  if h : p < 16384 then fc (xin V c) (win V c) (bin V c) ⟨p, h⟩ k else 0

private theorem hrow_eq (c : Dev nD) (p : ℕ) (h : p < 16384) (k : Fin 512) :
    hrow V c p k = fc (xin V c) (win V c) (bin V c) ⟨p, h⟩ k := dif_pos h

/-- The first layer of the point's input block is rows 1024·t … of the first layer of the batch. -/
private theorem pay3_blk (c : Dev nD) (t : Fin cfg0.N) (r : Fin 1024) (k : Fin 512) :
    k0_pay3 (F := Ideal) (xblk V c t) (wblk V c t) (bblk V c t) (ix2 r k) = hrow V c (t.val * 1024 + r.val) k := by
  have hN : t.val < 16 := lt_of_lt_of_eq t.isLt (show cfg0.N = 16 from N_0)
  have h : t.val * 1024 + r.val < 16384 := by have := r.isLt; omega
  rw [pay3_at, hrow_eq V c _ h]
  unfold fc
  refine congrArg₂ (· + ·) (Finset.sum_congr rfl fun d _ => ?_) (bblk_at V c t k)
  rw [xblk_at V c t r d h, wblk_at]

/-- After every point the first output's buffer holds the first layer of the point's rows. -/
private theorem outs3_at (c : Dev nD) (t : Fin cfg0.N) (r : Fin 1024) (k : Fin 512) :
    ((outsAt0 V c t.val t.isLt).1 : Vec Ideal S1024x512 .bf16) (ix2 r k) = hrow V c (t.val * 1024 + r.val) k := by
  by_cases h0 : t.val % 8 = 0
  · rw [outsAt0_A V c t h0]; dsimp only
    refine (congrFun (piece_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk V c t) (wblk V c t) (bblk V c t)) (ix2 r k)).trans ?_
    exact pay3_blk V c t r k
  · rw [outsAt0_B V c t h0]; dsimp only
    refine (congrFun (piece_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 r k)).trans ?_
    exact pay3_blk V c t r k

/-- The column sums of the first layer over the 1024 rows of block p. -/
private def bsum (c : Dev nD) (p : ℕ) (k : Fin 512) : EReal := ∑ r : Fin 1024, hrow V c (p * 1024 + r.val) k
/-- The column sums of squares of the first layer over the 1024 rows of block p. -/
private def bsq (c : Dev nD) (p : ℕ) (k : Fin 512) : EReal := ∑ r : Fin 1024, hrow V c (p * 1024 + r.val) k * hrow V c (p * 1024 + r.val) k

/-- A point that resets leaves its own block's column sums in every row of the sums' buffer … -/
private theorem outs4_reset (c : Dev nD) (t : Fin cfg0.N) (h0 : t.val % 8 = 0) (b : Fin 8) (k : Fin 512) :
    ((outsAt0 V c t.val t.isLt).2.1 : Vec Ideal S8x512 .f32) (ix2 b k) = bsum V c t.val k := by
  rw [outsAt0_A V c t h0]; dsimp only
  refine (congrFun (piece_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk V c t) (wblk V c t) (bblk V c t)) (ix2 b k)).trans ?_
  rw [pay6_at, pay1_at, zero_add]
  exact Finset.sum_congr rfl fun r _ => pay3_blk V c t r k

/-- … and any other point adds its block's column sums to what the point before left. -/
private theorem outs4_step (c : Dev nD) (t : Fin cfg0.N) (h0 : ¬t.val % 8 = 0) (b : Fin 8) (k : Fin 512) :
    ((outsAt0 V c t.val t.isLt).2.1 : Vec Ideal S8x512 .f32) (ix2 b k)
      = ((outsAt0 V c (t.val - 1) (Nat.lt_of_le_of_lt (Nat.sub_le _ _) t.isLt)).2.1 : Vec Ideal S8x512 .f32) (ix2 b k) + bsum V c t.val k := by
  rw [outsAt0_B V c t h0]; dsimp only
  refine (congrFun (piece_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 b k)).trans ?_
  rw [pay6_at]
  exact congrArg _ (Finset.sum_congr rfl fun r _ => pay3_blk V c t r k)

private theorem outs5_reset (c : Dev nD) (t : Fin cfg0.N) (h0 : t.val % 8 = 0) (b : Fin 8) (k : Fin 512) :
    ((outsAt0 V c t.val t.isLt).2.2 : Vec Ideal S8x512 .f32) (ix2 b k) = bsq V c t.val k := by
  rw [outsAt0_A V c t h0]; dsimp only
  refine (congrFun (piece_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (xblk V c t) (wblk V c t) (bblk V c t)) (ix2 b k)).trans ?_
  rw [pay7_at, pay2_at, zero_add]
  exact Finset.sum_congr rfl fun r _ => by rw [pay3_blk V c t r k]

private theorem outs5_step (c : Dev nD) (t : Fin cfg0.N) (h0 : ¬t.val % 8 = 0) (b : Fin 8) (k : Fin 512) :
    ((outsAt0 V c t.val t.isLt).2.2 : Vec Ideal S8x512 .f32) (ix2 b k)
      = ((outsAt0 V c (t.val - 1) (Nat.lt_of_le_of_lt (Nat.sub_le _ _) t.isLt)).2.2 : Vec Ideal S8x512 .f32) (ix2 b k) + bsq V c t.val k := by
  rw [outsAt0_B V c t h0]; dsimp only
  refine (congrFun (piece_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (xblk V c t) (wblk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 b k)).trans ?_
  rw [pay7_at]
  exact congrArg _ (Finset.sum_congr rfl fun r _ => by rw [pay3_blk V c t r k])

/-- A quantity over the grid points that restarts at the multiples of 8 with that point's term and elsewhere adds the
    point's term to its value at the point before is, at point n, the sum of the terms of its run of points
    8·(n/8) … n. -/
private theorem run_sum {N : ℕ} (f : (n : ℕ) → n < N → EReal) (g : ℕ → EReal)
    (h0 : ∀ (n : ℕ) (h : n < N), n % 8 = 0 → f n h = g n)
    (hs : ∀ (n : ℕ) (h : n + 1 < N), ¬(n + 1) % 8 = 0 → f (n + 1) h = f n (Nat.lt_of_succ_lt h) + g (n + 1)) :
    ∀ (n : ℕ) (h : n < N), f n h = ∑ s ∈ Finset.range (n % 8 + 1), g (n / 8 * 8 + s)
  | 0, h => by rw [h0 0 h rfl]; simp
  | n + 1, h => by
    by_cases hm : (n + 1) % 8 = 0
    · rw [h0 _ h hm, hm, Finset.sum_range_one]
      exact congrArg g (by omega)
    · rw [hs n h hm, run_sum f g h0 hs n (Nat.lt_of_succ_lt h)]
      have e1 : (n + 1) % 8 = n % 8 + 1 := by omega
      have e2 : (n + 1) / 8 = n / 8 := by omega
      rw [e1, e2, Finset.sum_range_succ _ (n % 8 + 1)]
      exact congrArg (_ + g ·) (by omega)

/-- After point n every row of the sums' buffer holds the column sums of the blocks 8·(n/8) … n. -/
private theorem outs4_closed (c : Dev nD) (b : Fin 8) (k : Fin 512) (n : ℕ) (hn : n < cfg0.N) :
    ((outsAt0 V c n hn).2.1 : Vec Ideal S8x512 .f32) (ix2 b k) = ∑ s ∈ Finset.range (n % 8 + 1), bsum V c (n / 8 * 8 + s) k :=
  run_sum (fun n hn => ((outsAt0 V c n hn).2.1 : Vec Ideal S8x512 .f32) (ix2 b k)) (fun p => bsum V c p k)
    (fun n h hm => outs4_reset V c ⟨n, h⟩ hm b k) (fun n h hm => outs4_step V c ⟨n + 1, h⟩ hm b k) n hn

private theorem outs5_closed (c : Dev nD) (b : Fin 8) (k : Fin 512) (n : ℕ) (hn : n < cfg0.N) :
    ((outsAt0 V c n hn).2.2 : Vec Ideal S8x512 .f32) (ix2 b k) = ∑ s ∈ Finset.range (n % 8 + 1), bsq V c (n / 8 * 8 + s) k :=
  run_sum (fun n hn => ((outsAt0 V c n hn).2.2 : Vec Ideal S8x512 .f32) (ix2 b k)) (fun p => bsq V c p k)
    (fun n h hm => outs5_reset V c ⟨n, h⟩ hm b k) (fun n h hm => outs5_step V c ⟨n + 1, h⟩ hm b k) n hn

/-- The eight blocks of a half of the batch, summed, are the partial table's entry for any row q of that half. -/
private theorem half_sum (c : Dev nD) (q : Fin 16) (k : Fin 512) :
    ∑ s ∈ Finset.range 8, bsum V c (q.val / 8 * 8 + s) k = psum (fc (xin V c) (win V c) (bin V c)) q k := by
  rw [Finset.sum_range]
  unfold psum bsum
  refine Finset.sum_congr rfl fun i _ => Finset.sum_congr rfl fun r _ => ?_
  have hq := q.isLt; have hi := i.isLt; have hr := r.isLt
  have h : (q.val / 8 * 8 + i.val) * 1024 + r.val < 16384 := by omega
  rw [hrow_eq V c _ h]
  refine congrArg (fun p => fc (xin V c) (win V c) (bin V c) p k) (Fin.ext ?_)
  show (q.val / 8 * 8 + i.val) * 1024 + r.val = q.val / 8 * 8192 + i.val * 1024 + r.val
  omega

private theorem half_sumsq (c : Dev nD) (q : Fin 16) (k : Fin 512) :
    ∑ s ∈ Finset.range 8, bsq V c (q.val / 8 * 8 + s) k = psumsq (fc (xin V c) (win V c) (bin V c)) q k := by
  rw [Finset.sum_range]
  unfold psumsq bsq
  refine Finset.sum_congr rfl fun i _ => Finset.sum_congr rfl fun r _ => ?_
  have hq := q.isLt; have hi := i.isLt; have hr := r.isLt
  have h : (q.val / 8 * 8 + i.val) * 1024 + r.val < 16384 := by omega
  rw [hrow_eq V c _ h]
  have e : (⟨(q.val / 8 * 8 + i.val) * 1024 + r.val, h⟩ : Fin 16384) = row q i r := Fin.ext (by
    show (q.val / 8 * 8 + i.val) * 1024 + r.val = q.val / 8 * 8192 + i.val * 1024 + r.val
    omega)
  rw [e]

end Invariant

section Arrays

/-- The three arrays the first stage leaves, as functions of what it finds: the first layer, and the two partial tables. -/
private def G3 (c : Dev nD) : S16384x512.Idx → EReal := fun i => fc (xin V c) (win V c) (bin V c) (i 0) (i 1)
private def G4 (c : Dev nD) : S16x512.Idx → EReal := fun i => psum (fc (xin V c) (win V c) (bin V c)) (i 0) (i 1)
private def G5 (c : Dev nD) : S16x512.Idx → EReal := fun i => psumsq (fc (xin V c) (win V c) (bin V c)) (i 0) (i 1)

/-- Every point writes back, as the first output's block, its rows of the first layer. -/
private theorem flushed3_eq (c : Dev nD) (t : Fin cfg0.N) :
    (dat0 V c).flushed 3 t = ((cfg0.win 3).blk t).view.read (Elt Ideal) (G3 V c) := by
  obtain ⟨-, -, -, -, -, -, e0, e1, -⟩ := idx_facts t
  have hN : t.val < 16 := lt_of_lt_of_eq t.isLt (show cfg0.N = 16 from N_0)
  show (cfg0.win 3).cut (grid0.coords t) ((dat0 V c).after 3 t) = _
  rw [after0_3]
  funext j
  obtain ⟨r, k, rfl⟩ : ∃ (r : Fin 1024) (k : Fin 512), j = ix2 r k := ⟨j 0, j 1, eq_ix2 j⟩
  show ((outsAt0 V c t.val t.isLt).1 : Vec Ideal S1024x512 .bf16) (ix2 r k) = G3 V c (((cfg0.win 3).blk t).view.emb (ix2 r k))
  have h : t.val * 1024 + r.val < 16384 := by have := r.isLt; omega
  rw [outs3_at, hrow_eq V c _ h]
  unfold G3
  refine congrArg₂ (fc (xin V c) (win V c) (bin V c)) (Fin.ext ?_) (Fin.ext ?_)
  · show t.val * 1024 + r.val = win0_3.index t (0 : Fin 2) * 1024 + 1 * r.val
    rw [e0]; omega
  · show k.val = win0_3.index t (1 : Fin 2) * 512 + 1 * k.val
    rw [e1]; omega

/-- Every row of the first output lies in the block of the point that computes it. -/
private theorem cover3 (c : Dev nD) (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, e0, e1, -⟩ := idx_facts t
  refine ⟨t, flush0_3 t, ?_⟩
  show i ∈ ((View.whole main_v8_0).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 512 ≤ (i 1).val ∧ (i 1).val < win0_3.index t (1 : Fin 2) * 512 + 512
    rw [e1]; omega

private theorem final3 (c : Dev nD) : (dat0 V c).arrAt 3 cfg0.N = G3 V c :=
  (dat0 V c).arrAt_eq_of_cover 3 (G3 V c) (fun t _ => flushed3_eq V c t) (cover3 c)

/-- The point that writes window 4's block back (the last of its half) writes the block of the partial table. -/
private theorem flushed4_eq (c : Dev nD) (t : Fin cfg0.N) (hf : (cfg0.win 4).flush t = true) :
    (dat0 V c).flushed 4 t = ((cfg0.win 4).blk t).view.read (Elt Ideal) (G4 V c) := by
  obtain ⟨-, -, -, -, -, -, -, -, e40, e41, e50, e51⟩ := idx_facts t
  have h7 : t.val % 8 = 7 := (flush0_4 t).mp hf
  have hN : t.val < 16 := lt_of_lt_of_eq t.isLt (show cfg0.N = 16 from N_0)
  show (cfg0.win 4).cut (grid0.coords t) ((dat0 V c).after 4 t) = _
  rw [after0_4]
  funext j
  obtain ⟨b, k, rfl⟩ : ∃ (b : Fin 8) (k : Fin 512), j = ix2 b k := ⟨j 0, j 1, eq_ix2 j⟩
  show ((outsAt0 V c t.val t.isLt).2.1 : Vec Ideal S8x512 .f32) (ix2 b k) = G4 V c (((cfg0.win 4).blk t).view.emb (ix2 b k))
  rw [outs4_closed V c b k t.val t.isLt, h7]
  unfold G4
  have hb := b.isLt
  have hq : (⟨t.val / 8 * 8 + b.val, by omega⟩ : Fin 16).val / 8 = t.val / 8 := by
    show (t.val / 8 * 8 + b.val) / 8 = t.val / 8
    omega
  have hs := half_sum V c ⟨t.val / 8 * 8 + b.val, by omega⟩ k
  rw [hq] at hs
  refine hs.trans (congrArg₂ (psum (fc (xin V c) (win V c) (bin V c))) (Fin.ext ?_) (Fin.ext ?_))
  · show t.val / 8 * 8 + b.val = win0_4.index t (0 : Fin 2) * 8 + 1 * b.val
    rw [e40]; omega
  · show k.val = win0_4.index t (1 : Fin 2) * 512 + 1 * k.val
    rw [e41]; omega

/-- Every row of the partial table lies in the block its half's last point writes back. -/
private theorem cover4 (c : Dev nD) (i : S16x512.Idx) :
    ∃ t : Fin cfg0.N, (cfg0.win 4).flush t = true ∧ i ∈ ((cfg0.win 4).blk t).view.set := by
  have hi0 : (i 0).val < 16 := (i 0).isLt
  have hi1 : (i 1).val < 512 := (i 1).isLt
  have hN : cfg0.N = 16 := N_0
  obtain ⟨t, ht⟩ : ∃ t : Fin cfg0.N, t.val = (i 0).val / 8 * 8 + 7 := ⟨⟨(i 0).val / 8 * 8 + 7, by rw [hN]; omega⟩, rfl⟩
  obtain ⟨-, -, -, -, -, -, -, -, e40, e41, e50, e51⟩ := idx_facts t
  refine ⟨t, (flush0_4 t).mpr (by omega), ?_⟩
  show i ∈ ((View.whole main_v8_1).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    rw [e40]; omega
  | ⟨1, _⟩ =>
    show win0_4.index t (1 : Fin 2) * 512 ≤ (i 1).val ∧ (i 1).val < win0_4.index t (1 : Fin 2) * 512 + 512
    rw [e41]; omega

private theorem final4 (c : Dev nD) : (dat0 V c).arrAt 4 cfg0.N = G4 V c :=
  (dat0 V c).arrAt_eq_of_cover 4 (G4 V c) (flushed4_eq V c) (cover4 c)

/-- The point that writes window 5's block back (the last of its half) writes the block of the partial table. -/
private theorem flushed5_eq (c : Dev nD) (t : Fin cfg0.N) (hf : (cfg0.win 5).flush t = true) :
    (dat0 V c).flushed 5 t = ((cfg0.win 5).blk t).view.read (Elt Ideal) (G5 V c) := by
  obtain ⟨-, -, -, -, -, -, -, -, e40, e41, e50, e51⟩ := idx_facts t
  have h7 : t.val % 8 = 7 := (flush0_5 t).mp hf
  have hN : t.val < 16 := lt_of_lt_of_eq t.isLt (show cfg0.N = 16 from N_0)
  show (cfg0.win 5).cut (grid0.coords t) ((dat0 V c).after 5 t) = _
  rw [after0_5]
  funext j
  obtain ⟨b, k, rfl⟩ : ∃ (b : Fin 8) (k : Fin 512), j = ix2 b k := ⟨j 0, j 1, eq_ix2 j⟩
  show ((outsAt0 V c t.val t.isLt).2.2 : Vec Ideal S8x512 .f32) (ix2 b k) = G5 V c (((cfg0.win 5).blk t).view.emb (ix2 b k))
  rw [outs5_closed V c b k t.val t.isLt, h7]
  unfold G5
  have hb := b.isLt
  have hq : (⟨t.val / 8 * 8 + b.val, by omega⟩ : Fin 16).val / 8 = t.val / 8 := by
    show (t.val / 8 * 8 + b.val) / 8 = t.val / 8
    omega
  have hs := half_sumsq V c ⟨t.val / 8 * 8 + b.val, by omega⟩ k
  rw [hq] at hs
  refine hs.trans (congrArg₂ (psumsq (fc (xin V c) (win V c) (bin V c))) (Fin.ext ?_) (Fin.ext ?_))
  · show t.val / 8 * 8 + b.val = win0_5.index t (0 : Fin 2) * 8 + 1 * b.val
    rw [e50]; omega
  · show k.val = win0_5.index t (1 : Fin 2) * 512 + 1 * k.val
    rw [e51]; omega

/-- Every row of the partial table lies in the block its half's last point writes back. -/
private theorem cover5 (c : Dev nD) (i : S16x512.Idx) :
    ∃ t : Fin cfg0.N, (cfg0.win 5).flush t = true ∧ i ∈ ((cfg0.win 5).blk t).view.set := by
  have hi0 : (i 0).val < 16 := (i 0).isLt
  have hi1 : (i 1).val < 512 := (i 1).isLt
  have hN : cfg0.N = 16 := N_0
  obtain ⟨t, ht⟩ : ∃ t : Fin cfg0.N, t.val = (i 0).val / 8 * 8 + 7 := ⟨⟨(i 0).val / 8 * 8 + 7, by rw [hN]; omega⟩, rfl⟩
  obtain ⟨-, -, -, -, -, -, -, -, e40, e41, e50, e51⟩ := idx_facts t
  refine ⟨t, (flush0_5 t).mpr (by omega), ?_⟩
  show i ∈ ((View.whole main_v8_2).slice (win0_5.rect t)).set
  rw [View.set_slice_whole, Rect.mem_set_unit]
  intro a
  match a with
  | ⟨0, _⟩ =>
    show win0_5.index t (0 : Fin 2) * 8 ≤ (i 0).val ∧ (i 0).val < win0_5.index t (0 : Fin 2) * 8 + 8
    rw [e50]; omega
  | ⟨1, _⟩ =>
    show win0_5.index t (1 : Fin 2) * 512 ≤ (i 1).val ∧ (i 1).val < win0_5.index t (1 : Fin 2) * 512 + 512
    rw [e51]; omega

private theorem final5 (c : Dev nD) : (dat0 V c).arrAt 5 cfg0.N = G5 V c :=
  (dat0 V c).arrAt_eq_of_cover 5 (G5 V c) (flushed5_eq V c) (cover5 c)

end Arrays

/-- After the first stage its first output array holds the first linear layer, entry by entry. -/
theorem h_arr (c : Dev nD) (r : Fin 16384) (k : Fin 512) :
    ((dat0 V c).arrAt 3 cfg0.N : S16384x512.Idx → EReal) (ix2 r k) = fc (xin V c) (win V c) (bin V c) r k := by
  exact congrFun (final3 V c) (ix2 r k)

/-- After the first stage its second output array holds, in row q, the column sums of the first layer over the batch half
    of q. -/
theorem sum_arr (c : Dev nD) (q : Fin 16) (k : Fin 512) :
    ((dat0 V c).arrAt 4 cfg0.N : S16x512.Idx → EReal) (ix2 q k) = psum (fc (xin V c) (win V c) (bin V c)) q k := by
  exact congrFun (final4 V c) (ix2 q k)

/-- After the first stage its third output array holds, in row q, the column sums of squares over the batch half of q. -/
theorem sumsq_arr (c : Dev nD) (q : Fin 16) (k : Fin 512) :
    ((dat0 V c).arrAt 5 cfg0.N : S16x512.Idx → EReal) (ix2 q k) = psumsq (fc (xin V c) (win V c) (bin V c)) q k := by
  exact congrFun (final5 V c) (ix2 q k)

end Cert.Region0

end
-- ==== Proof.Region1.lean ====
import proofs.«426521_j8065948582254_3_alg».proof.Proof.Gen.KernelIdeal.Frame
import proofs.«426521_j8065948582254_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Region1

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-- The arrays the second stage reads, as it finds them: the stored first layer, the two partial tables, γ, β, the second
    layer's weights and bias row, the mask table as numbers, and the category words as a column. -/
def hin (c : Dev nD) (r : Fin 16384) (k : Fin 512) : EReal := V c main_v8_0 (ix2 r k)
def sin (c : Dev nD) (q : Fin 16) (k : Fin 512) : EReal := V c main_v8_1 (ix2 q k)
def qin (c : Dev nD) (q : Fin 16) (k : Fin 512) : EReal := V c main_v8_2 (ix2 q k)
def gin (c : Dev nD) (k : Fin 512) : EReal := V c main_v5 (ix2 (0 : Fin 1) k)
def bein (c : Dev nD) (k : Fin 512) : EReal := V c main_v6 (ix2 (0 : Fin 1) k)
def wcin (c : Dev nD) (k : Fin 512) (j : Fin 125) : EReal := V c main_v3 (ix2 k j)
def bcin (c : Dev nD) (j : Fin 125) : EReal := V c main_v7 (ix2 (0 : Fin 1) j)
def mkin (c : Dev nD) (q : Fin 64) (j : Fin 125) : EReal := V c main_v1 (ix2 q j)
def ctin (c : Dev nD) (r : Fin 16384) : BitVec 32 := V c main_v0 (ix2 r (0 : Fin 1))

/-! ## The first payload at an index -/

/-- The sum over the 16 rows of a [16,512] table, lane by lane. -/
theorem colsum_apply (v : FVec Ideal S16x512 .f32) (hφ : FTy.f32 = FTy.f32 ∨ FTy.f32 = FTy.bf16)
    (hacc : (0x00000000#32 : BitVec 32) = 0x00000000#32) (k : Fin 512) :
    multiReduction (F := Ideal) .add [0] S512 v 0x00000000#32 reduces_S16x512_S512 hφ hacc (ix1 k)
      = ∑ a : Fin 16, v (ix2 a k) := by
  refine (Ideal.multiReduction_add_single v _ reduces_S16x512_S512 hφ hacc (ix1 k)).trans ?_
  refine Finset.sum_congr rfl fun a _ => congrArg v ?_
  funext d
  match d with
  | ⟨0, _⟩ => rfl
  | ⟨1, _⟩ => rfl

theorem rsqrt_apply {s : Shape} {φ : FTy} (a : FVec Ideal s φ) (i : s.Idx) : rsqrt a i = Ideal.rsqrt (a i) := rfl

/-- The first payload at (p,k): the block's entry through the folded affine map, rectified; the statistics are those of
    the two partial tables, the affine map's parameters the two rows. -/
theorem pay2_apply (x1 x2 : Vec Ideal S16x512 .f32) (x3 x4 : Vec Ideal S1x512 .f32) (x0 : Vec Ideal S2048x512 .bf16)
    (p : Fin 2048) (k : Fin 512) :
    (k1_pay2 (F := Ideal) x1 x2 x3 x4 x0 : FVec Ideal S2048x512 .bf16) (ix2 p k)
      = max ((x0 (ix2 p k) : EReal) * kscale (fun a k => x1 (ix2 a k)) (fun a k => x2 (ix2 a k)) (fun k => x3 (ix2 (0 : Fin 1) k)) k
          + kshift (fun a k => x1 (ix2 a k)) (fun a k => x2 (ix2 a k)) (fun k => x3 (ix2 (0 : Fin 1) k)) (fun k => x4 (ix2 (0 : Fin 1) k)) k) cZero := by
  unfold k1_pay2
  simp only [truncf_apply, maximumf_apply, addf_apply, mulf_apply, extf_apply, subf_apply, broadcast_apply, shapeCast_self,
    broadcastTo_1b_ab_apply, rsqrt_apply, shapeCast_a_1a_apply, Ideal.ofBits_def]
  rw [colsum_apply x1, colsum_apply x2]
  rfl

/-- The same with the tables and rows named. -/
theorem pay2_apply' (x1 x2 : Vec Ideal S16x512 .f32) (x3 x4 : Vec Ideal S1x512 .f32) (x0 : Vec Ideal S2048x512 .bf16)
    (S Q : Fin 16 → Fin 512 → EReal) (g be : Fin 512 → EReal)
    (h1 : ∀ a k, x1 (ix2 a k) = S a k) (h2 : ∀ a k, x2 (ix2 a k) = Q a k)
    (h3 : ∀ k, x3 (ix2 (0 : Fin 1) k) = g k) (h4 : ∀ k, x4 (ix2 (0 : Fin 1) k) = be k) (p : Fin 2048) (k : Fin 512) :
    (k1_pay2 (F := Ideal) x1 x2 x3 x4 x0 : FVec Ideal S2048x512 .bf16) (ix2 p k)
      = max ((x0 (ix2 p k) : EReal) * kscale S Q g k + kshift S Q g be k) cZero := by
  obtain rfl : (fun a k => x1 (ix2 a k)) = S := funext fun a => funext fun k => h1 a k
  obtain rfl : (fun a k => x2 (ix2 a k)) = Q := funext fun a => funext fun k => h2 a k
  obtain rfl : (fun k => x3 (ix2 (0 : Fin 1) k)) = g := funext fun k => h3 k
  obtain rfl : (fun k => x4 (ix2 (0 : Fin 1) k)) = be := funext fun k => h4 k
  exact pay2_apply x1 x2 x3 x4 x0 p k

/-! ## The second payload at an index -/

theorem lhs_mmA_0 (i : S2048x125.Idx) (q : dot_S2048x512_S512x125_S2048x125_1_0_0_1_n_n.contr.Idx) :
    (dot_S2048x512_S512x125_S2048x125_1_0_0_1_n_n.lhsIdx i q 0).val = (i 0).val := by
  unfold DotDims.lhsIdx
  rw [dif_neg (show ¬(0 : Fin S2048x512.rank) ∈ dot_S2048x512_S512x125_S2048x125_1_0_0_1_n_n.lhsBatch by decide), dif_pos (show (0 : Fin S2048x512.rank) ∈ dot_S2048x512_S512x125_S2048x125_1_0_0_1_n_n.lhsNonContracting by decide)]
  rfl
theorem lhs_mmA_1 (i : S2048x125.Idx) (q : dot_S2048x512_S512x125_S2048x125_1_0_0_1_n_n.contr.Idx) :
    (dot_S2048x512_S512x125_S2048x125_1_0_0_1_n_n.lhsIdx i q 1).val = (q ⟨0, by decide⟩).val :=
  dot_S2048x512_S512x125_S2048x125_1_0_0_1_n_n.lhsIdx_val_of_single rfl i q
theorem rhs_mmA_0 (i : S2048x125.Idx) (q : dot_S2048x512_S512x125_S2048x125_1_0_0_1_n_n.contr.Idx) :
    (dot_S2048x512_S512x125_S2048x125_1_0_0_1_n_n.rhsIdx i q 0).val = (q ⟨0, by decide⟩).val :=
  dot_S2048x512_S512x125_S2048x125_1_0_0_1_n_n.rhsIdx_val_of_single rfl i q
theorem rhs_mmA_1 (i : S2048x125.Idx) (q : dot_S2048x512_S512x125_S2048x125_1_0_0_1_n_n.contr.Idx) :
    (dot_S2048x512_S512x125_S2048x125_1_0_0_1_n_n.rhsIdx i q 1).val = (i 1).val := by
  unfold DotDims.rhsIdx
  rw [dif_neg (show ¬(1 : Fin S512x125.rank) ∈ dot_S2048x512_S512x125_S2048x125_1_0_0_1_n_n.rhsBatch by decide), dif_pos (show (1 : Fin S512x125.rank) ∈ dot_S2048x512_S512x125_S2048x125_1_0_0_1_n_n.rhsNonContracting by decide)]
  rfl

/-- A product into the zero accumulator, read at (p,q): the sum over the contracted axis. -/
theorem mmA_apply {φ₁ φ₂ : FTy} (l : FVec Ideal S2048x512 φ₁) (r : FVec Ideal S512x125 φ₂) (p : Fin 2048) (q : Fin 125) :
    FloatOps.matmul dot_S2048x512_S512x125_S2048x125_1_0_0_1_n_n none l r (constant (F := Ideal) S2048x125 .f32 0x00000000#32) (ix2 p q)
      = ∑ k : Fin 512, l (ix2 p k) * r (ix2 k q) := by
  rw [Ideal.matmul_constant_zero_apply, ← Equiv.sum_comp (ValueIdx.contrEquiv1 dot_S2048x512_S512x125_S2048x125_1_0_0_1_n_n 512 rfl rfl).symm]
  refine Finset.sum_congr rfl fun k _ => ?_
  have hk := ValueIdx.contrEquiv1_symm_val dot_S2048x512_S512x125_S2048x125_1_0_0_1_n_n 512 rfl rfl k
  have el : dot_S2048x512_S512x125_S2048x125_1_0_0_1_n_n.lhsIdx (ix2 p q) ((ValueIdx.contrEquiv1 dot_S2048x512_S512x125_S2048x125_1_0_0_1_n_n 512 rfl rfl).symm k) = ix2 p k := funext fun a => Fin.ext (by
    match a with
    | ⟨0, _⟩ => exact lhs_mmA_0 _ _
    | ⟨1, _⟩ => exact (lhs_mmA_1 _ _).trans hk)
  have er : dot_S2048x512_S512x125_S2048x125_1_0_0_1_n_n.rhsIdx (ix2 p q) ((ValueIdx.contrEquiv1 dot_S2048x512_S512x125_S2048x125_1_0_0_1_n_n 512 rfl rfl).symm k) = ix2 k q := funext fun a => Fin.ext (by
    match a with
    | ⟨0, _⟩ => exact (rhs_mmA_0 _ _).trans hk
    | ⟨1, _⟩ => exact rhs_mmA_1 _ _)
  rw [el, er]

theorem lhs_mmB_0 (i : S2048x125.Idx) (q : dot_S2048x64_S64x125_S2048x125_1_0_0_1_n_n.contr.Idx) :
    (dot_S2048x64_S64x125_S2048x125_1_0_0_1_n_n.lhsIdx i q 0).val = (i 0).val := by
  unfold DotDims.lhsIdx
  rw [dif_neg (show ¬(0 : Fin S2048x64.rank) ∈ dot_S2048x64_S64x125_S2048x125_1_0_0_1_n_n.lhsBatch by decide), dif_pos (show (0 : Fin S2048x64.rank) ∈ dot_S2048x64_S64x125_S2048x125_1_0_0_1_n_n.lhsNonContracting by decide)]
  rfl
theorem lhs_mmB_1 (i : S2048x125.Idx) (q : dot_S2048x64_S64x125_S2048x125_1_0_0_1_n_n.contr.Idx) :
    (dot_S2048x64_S64x125_S2048x125_1_0_0_1_n_n.lhsIdx i q 1).val = (q ⟨0, by decide⟩).val :=
  dot_S2048x64_S64x125_S2048x125_1_0_0_1_n_n.lhsIdx_val_of_single rfl i q
theorem rhs_mmB_0 (i : S2048x125.Idx) (q : dot_S2048x64_S64x125_S2048x125_1_0_0_1_n_n.contr.Idx) :
    (dot_S2048x64_S64x125_S2048x125_1_0_0_1_n_n.rhsIdx i q 0).val = (q ⟨0, by decide⟩).val :=
  dot_S2048x64_S64x125_S2048x125_1_0_0_1_n_n.rhsIdx_val_of_single rfl i q
theorem rhs_mmB_1 (i : S2048x125.Idx) (q : dot_S2048x64_S64x125_S2048x125_1_0_0_1_n_n.contr.Idx) :
    (dot_S2048x64_S64x125_S2048x125_1_0_0_1_n_n.rhsIdx i q 1).val = (i 1).val := by
  unfold DotDims.rhsIdx
  rw [dif_neg (show ¬(1 : Fin S64x125.rank) ∈ dot_S2048x64_S64x125_S2048x125_1_0_0_1_n_n.rhsBatch by decide), dif_pos (show (1 : Fin S64x125.rank) ∈ dot_S2048x64_S64x125_S2048x125_1_0_0_1_n_n.rhsNonContracting by decide)]
  rfl

/-- A product into the zero accumulator, read at (p,q): the sum over the contracted axis. -/
theorem mmB_apply {φ₁ φ₂ : FTy} (l : FVec Ideal S2048x64 φ₁) (r : FVec Ideal S64x125 φ₂) (p : Fin 2048) (q : Fin 125) :
    FloatOps.matmul dot_S2048x64_S64x125_S2048x125_1_0_0_1_n_n none l r (constant (F := Ideal) S2048x125 .f32 0x00000000#32) (ix2 p q)
      = ∑ k : Fin 64, l (ix2 p k) * r (ix2 k q) := by
  rw [Ideal.matmul_constant_zero_apply, ← Equiv.sum_comp (ValueIdx.contrEquiv1 dot_S2048x64_S64x125_S2048x125_1_0_0_1_n_n 64 rfl rfl).symm]
  refine Finset.sum_congr rfl fun k _ => ?_
  have hk := ValueIdx.contrEquiv1_symm_val dot_S2048x64_S64x125_S2048x125_1_0_0_1_n_n 64 rfl rfl k
  have el : dot_S2048x64_S64x125_S2048x125_1_0_0_1_n_n.lhsIdx (ix2 p q) ((ValueIdx.contrEquiv1 dot_S2048x64_S64x125_S2048x125_1_0_0_1_n_n 64 rfl rfl).symm k) = ix2 p k := funext fun a => Fin.ext (by
    match a with
    | ⟨0, _⟩ => exact lhs_mmB_0 _ _
    | ⟨1, _⟩ => exact (lhs_mmB_1 _ _).trans hk)
  have er : dot_S2048x64_S64x125_S2048x125_1_0_0_1_n_n.rhsIdx (ix2 p q) ((ValueIdx.contrEquiv1 dot_S2048x64_S64x125_S2048x125_1_0_0_1_n_n 64 rfl rfl).symm k) = ix2 k q := funext fun a => Fin.ext (by
    match a with
    | ⟨0, _⟩ => exact (rhs_mmB_0 _ _).trans hk
    | ⟨1, _⟩ => exact rhs_mmB_1 _ _)
  rw [el, er]

/-- A [a,1] column broadcast along its unit axis reads, at (p,c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator word of an equality of two words, widened and read as a number. -/
theorem hot_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h; simp [IntOp.cmpi]
  · have hb : (a == b) = false := by simpa using h
    simp [IntOp.cmpi, hb, h]

/-- A select on "a exceeds b" is the if-then-else. -/
theorem select_ogt {α : Type} (a b : EReal) (x y : α) :
    Scalar.select (FloatOps.cmpf (F := Ideal) (φ := .f32) .ogt a b) x y = if b < a then x else y := by
  show (if BitVec.ofBool (decide (b < a)) = 1 then x else y) = _
  by_cases h : b < a <;> simp [h]

theorem cmpi_apply {s : Shape} {w : Nat} (pr : CmpIPredicate) (x y : IVec s w) (i : s.Idx) :
    cmpi pr x y i = IntOp.cmpi pr (x i) (y i) := rfl

/-- The lane counter along the 64 categories. -/
theorem iotaB_apply (p : Fin 2048) (c : Fin 64) :
    iota .tc S2048x64 32 [1] iota_S2048x64_d1_w32 (ix2 p c) = BitVec.ofNat 32 c.val :=
  iota_single_apply .tc S2048x64 32 1 iota_S2048x64_d1_w32 (ix2 p c)

/-- The second payload at (p,q): the fill value where the row's mask exceeds one half, else the logits. -/
theorem pay1_apply (v39 : FVec Ideal S2048x512 .bf16) (x5 : Vec Ideal S512x125 .bf16) (x6 : Vec Ideal S1x125 .f32)
    (x8 : Vec Ideal S2048x1 .i32) (x7 : Vec Ideal S64x125 .bf16) (p : Fin 2048) (q : Fin 125) :
    (k1_pay1 (F := Ideal) v39 x5 x6 x8 x7 : FVec Ideal S2048x125 .f32) (ix2 p q)
      = if cHalf < ∑ c : Fin 64, (if BitVec.ofNat 32 c.val = x8 (ix2 p (0 : Fin 1)) then (1 : EReal) else 0) * x7 (ix2 c q) then cFill
        else (∑ k : Fin 512, v39 (ix2 p k) * x5 (ix2 k q)) + x6 (ix2 (0 : Fin 1) q) := by
  unfold k1_pay1
  simp only [select_apply, cmpf_apply, addf_apply, broadcast_apply, shapeCast_self, matmul, mmA_apply, mmB_apply,
    truncf_apply, sitofp_apply, extui_apply, cmpi_apply, broadcastTo_1b_ab_apply, broadcastTo_a1_ab_apply,
    Ideal.ofBits_def, select_ogt, hot_word]
  have hs : (∑ x : Fin 64, (if iota .tc S2048x64 32 [1] iota_S2048x64_d1_w32 (ix2 p x) = x8 (ix2 p (0 : Fin 1)) then (1 : EReal) else 0) * x7 (ix2 x q))
      = ∑ c : Fin 64, (if BitVec.ofNat 32 c.val = x8 (ix2 p (0 : Fin 1)) then (1 : EReal) else 0) * x7 (ix2 c q) :=
    Finset.sum_congr rfl fun x _ => by rw [iotaB_apply]
  rw [hs]
  rfl

/-! ## What the body leaves in the output's buffer, at an index -/

theorem hz : (![0, 0] : Fin 2 → Nat) = fun _ => 0 := funext fun a => by fin_cases a <;> rfl

/-- Entry (p,q) of the output's buffer after the body is the kernel's second stage at (r,q), for any arrays whose row r,
    tables, rows and columns the input blocks hold at row p. -/
theorem out_apply (x0 : Vec Ideal S2048x512 .bf16) (x1 x2 : Vec Ideal S16x512 .f32) (x3 x4 : Vec Ideal S1x512 .f32)
    (x5 : Vec Ideal S512x125 .bf16) (x6 : Vec Ideal S1x125 .f32) (x7 : Vec Ideal S64x125 .bf16) (x8 : Vec Ideal S2048x1 .i32)
    (H : Fin 16384 → Fin 512 → EReal) (S Q : Fin 16 → Fin 512 → EReal) (g be : Fin 512 → EReal)
    (Wc : Fin 512 → Fin 125 → EReal) (bc : Fin 125 → EReal) (mk : Fin 64 → Fin 125 → EReal) (ct : Fin 16384 → BitVec 32)
    (r : Fin 16384) (p : Fin 2048) (q : Fin 125)
    (h0 : ∀ k, x0 (ix2 p k) = H r k) (h1 : ∀ a k, x1 (ix2 a k) = S a k) (h2 : ∀ a k, x2 (ix2 a k) = Q a k)
    (h3 : ∀ k, x3 (ix2 (0 : Fin 1) k) = g k) (h4 : ∀ k, x4 (ix2 (0 : Fin 1) k) = be k)
    (h5 : ∀ k j, x5 (ix2 k j) = Wc k j) (h6 : ∀ j, x6 (ix2 (0 : Fin 1) j) = bc j) (h7 : ∀ a j, x7 (ix2 a j) = mk a j)
    (h8 : x8 (ix2 p (0 : Fin 1)) = ct r) :
    (out1_9 (F := Ideal) x0 x1 x2 x3 x4 x5 x6 x7 x8 : Vec Ideal S2048x125 .f32) (ix2 p q)
      = kernelOut H S Q g be Wc bc mk ct r q := by
  unfold out1_9
  rw [View.canon_unit_zero hz]
  simp only [View.ld_unit_zero (S := S16x512) hz, View.ld_unit_zero (S := S1x512) hz, View.ld_unit_zero (S := S2048x512) hz,
    View.ld_unit_zero (S := S512x125) hz, View.ld_unit_zero (S := S1x125) hz, View.ld_unit_zero (S := S2048x1) hz,
    View.ld_unit_zero (S := S64x125) hz]
  rw [pay1_apply]
  simp only [pay2_apply' x1 x2 x3 x4 x0 S Q g be h1 h2 h3 h4, h0, h5, h6, h7, h8]
  rfl

/-- The printed index maps, decided over the grid: the stored first layer, the category column and the output move
    together, block t at point t; every other window stays on its one block. -/
theorem idx_facts : ∀ t : Fin cfg1.N,
    win1_9.index t (0 : Fin 2) = t.val ∧ win1_9.index t (1 : Fin 2) = 0
    ∧ win1_0.index t (0 : Fin 2) = t.val ∧ win1_0.index t (1 : Fin 2) = 0
    ∧ win1_8.index t (0 : Fin 2) = t.val ∧ win1_8.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-! ## The input blocks as the arrays they are cut from -/

/-- The stored first layer's block at point t is rows 2048·t … of the array. -/
theorem blk0 (c : Dev nD) (t : Fin cfg1.N) (p : Fin 2048) (k : Fin 512) (r : Fin 16384) (hr : r.val = t.val * 2048 + p.val) :
    (iblk1 V c 0 t : Vec Ideal S2048x512 .bf16) (ix2 p k) = hin V c r k := by
  obtain ⟨-, -, e0, e1, -⟩ := idx_facts t
  unfold iblk1 hin
  rw [View.read_apply]
  show (V c main_v8_0 : S16384x512.Idx → EReal) (((cfg1.win 0).blk t).view.emb (ix2 p k)) = (V c main_v8_0 : S16384x512.Idx → EReal) (ix2 r k)
  refine congrArg _ (funext fun a => Fin.ext ?_)
  match a with
  | ⟨0, _⟩ => show win1_0.index t (0 : Fin 2) * 2048 + 1 * p.val = r.val; rw [e0, hr]; omega
  | ⟨1, _⟩ => show win1_0.index t (1 : Fin 2) * 512 + 1 * k.val = k.val; rw [e1]; omega

/-- The category column's block at point t is rows 2048·t … of the column. -/
theorem blk8 (c : Dev nD) (t : Fin cfg1.N) (p : Fin 2048) (r : Fin 16384) (hr : r.val = t.val * 2048 + p.val) :
    (iblk1 V c 8 t : Vec Ideal S2048x1 .i32) (ix2 p (0 : Fin 1)) = ctin V c r := by
  obtain ⟨-, -, -, -, e0, e1, -⟩ := idx_facts t
  unfold iblk1 ctin
  rw [View.read_apply]
  show (V c main_v0 : S16384x1.Idx → BitVec 32) (((cfg1.win 8).blk t).view.emb (ix2 p (0 : Fin 1))) = (V c main_v0 : S16384x1.Idx → BitVec 32) (ix2 r (0 : Fin 1))
  refine congrArg _ (funext fun a => Fin.ext ?_)
  match a with
  | ⟨0, _⟩ => show win1_8.index t (0 : Fin 2) * 2048 + 1 * p.val = r.val; rw [e0, hr]; omega
  | ⟨1, _⟩ => show win1_8.index t (1 : Fin 2) * 1 + 1 * 0 = 0; rw [e1]

/-- Window 1's block is its whole array at every point. -/
theorem blk1 (c : Dev nD) (t : Fin cfg1.N) (a : Fin 16) (k : Fin 512) :
    (iblk1 V c 1 t : Vec Ideal S16x512 .f32) (ix2 a k) = sin V c a k := by
  obtain ⟨-, -, -, -, -, -, e0, e1, -⟩ := idx_facts t
  unfold iblk1 sin
  rw [View.read_apply]
  show (V c main_v8_1 : S16x512.Idx → EReal) (((cfg1.win 1).blk t).view.emb (ix2 a k)) = (V c main_v8_1 : S16x512.Idx → EReal) (ix2 a k)
  refine congrArg _ (funext fun d => Fin.ext ?_)
  match d with
  | ⟨0, _⟩ => show win1_1.index t (0 : Fin 2) * 16 + 1 * a.val = a.val; rw [e0]; omega
  | ⟨1, _⟩ => show win1_1.index t (1 : Fin 2) * 512 + 1 * k.val = k.val; rw [e1]; omega

/-- Window 2's block is its whole array at every point. -/
theorem blk2 (c : Dev nD) (t : Fin cfg1.N) (a : Fin 16) (k : Fin 512) :
    (iblk1 V c 2 t : Vec Ideal S16x512 .f32) (ix2 a k) = qin V c a k := by
  obtain ⟨-, -, -, -, -, -, -, -, e0, e1, -⟩ := idx_facts t
  unfold iblk1 qin
  rw [View.read_apply]
  show (V c main_v8_2 : S16x512.Idx → EReal) (((cfg1.win 2).blk t).view.emb (ix2 a k)) = (V c main_v8_2 : S16x512.Idx → EReal) (ix2 a k)
  refine congrArg _ (funext fun d => Fin.ext ?_)
  match d with
  | ⟨0, _⟩ => show win1_2.index t (0 : Fin 2) * 16 + 1 * a.val = a.val; rw [e0]; omega
  | ⟨1, _⟩ => show win1_2.index t (1 : Fin 2) * 512 + 1 * k.val = k.val; rw [e1]; omega

/-- Window 3's block is its whole array at every point. -/
theorem blk3 (c : Dev nD) (t : Fin cfg1.N) (k : Fin 512) :
    (iblk1 V c 3 t : Vec Ideal S1x512 .f32) (ix2 (0 : Fin 1) k) = gin V c k := by
  obtain ⟨-, -, -, -, -, -, -, -, -, -, e0, e1, -⟩ := idx_facts t
  unfold iblk1 gin
  rw [View.read_apply]
  show (V c main_v5 : S1x512.Idx → EReal) (((cfg1.win 3).blk t).view.emb (ix2 (0 : Fin 1) k)) = (V c main_v5 : S1x512.Idx → EReal) (ix2 (0 : Fin 1) k)
  refine congrArg _ (funext fun d => Fin.ext ?_)
  match d with
  | ⟨0, _⟩ => show win1_3.index t (0 : Fin 2) * 1 + 1 * 0 = 0; rw [e0]
  | ⟨1, _⟩ => show win1_3.index t (1 : Fin 2) * 512 + 1 * k.val = k.val; rw [e1]; omega

/-- Window 4's block is its whole array at every point. -/
theorem blk4 (c : Dev nD) (t : Fin cfg1.N) (k : Fin 512) :
    (iblk1 V c 4 t : Vec Ideal S1x512 .f32) (ix2 (0 : Fin 1) k) = bein V c k := by
  obtain ⟨-, -, -, -, -, -, -, -, -, -, -, -, e0, e1, -⟩ := idx_facts t
  unfold iblk1 bein
  rw [View.read_apply]
  show (V c main_v6 : S1x512.Idx → EReal) (((cfg1.win 4).blk t).view.emb (ix2 (0 : Fin 1) k)) = (V c main_v6 : S1x512.Idx → EReal) (ix2 (0 : Fin 1) k)
  refine congrArg _ (funext fun d => Fin.ext ?_)
  match d with
  | ⟨0, _⟩ => show win1_4.index t (0 : Fin 2) * 1 + 1 * 0 = 0; rw [e0]
  | ⟨1, _⟩ => show win1_4.index t (1 : Fin 2) * 512 + 1 * k.val = k.val; rw [e1]; omega

/-- Window 5's block is its whole array at every point. -/
theorem blk5 (c : Dev nD) (t : Fin cfg1.N) (a : Fin 512) (k : Fin 125) :
    (iblk1 V c 5 t : Vec Ideal S512x125 .bf16) (ix2 a k) = wcin V c a k := by
  obtain ⟨-, -, -, -, -, -, -, -, -, -, -, -, -, -, e0, e1, -⟩ := idx_facts t
  unfold iblk1 wcin
  rw [View.read_apply]
  show (V c main_v3 : S512x125.Idx → EReal) (((cfg1.win 5).blk t).view.emb (ix2 a k)) = (V c main_v3 : S512x125.Idx → EReal) (ix2 a k)
  refine congrArg _ (funext fun d => Fin.ext ?_)
  match d with
  | ⟨0, _⟩ => show win1_5.index t (0 : Fin 2) * 512 + 1 * a.val = a.val; rw [e0]; omega
  | ⟨1, _⟩ => show win1_5.index t (1 : Fin 2) * 125 + 1 * k.val = k.val; rw [e1]; omega

/-- Window 6's block is its whole array at every point. -/
theorem blk6 (c : Dev nD) (t : Fin cfg1.N) (k : Fin 125) :
    (iblk1 V c 6 t : Vec Ideal S1x125 .f32) (ix2 (0 : Fin 1) k) = bcin V c k := by
  obtain ⟨-, -, -, -, -, -, -, -, -, -, -, -, -, -, -, -, e0, e1, -⟩ := idx_facts t
  unfold iblk1 bcin
  rw [View.read_apply]
  show (V c main_v7 : S1x125.Idx → EReal) (((cfg1.win 6).blk t).view.emb (ix2 (0 : Fin 1) k)) = (V c main_v7 : S1x125.Idx → EReal) (ix2 (0 : Fin 1) k)
  refine congrArg _ (funext fun d => Fin.ext ?_)
  match d with
  | ⟨0, _⟩ => show win1_6.index t (0 : Fin 2) * 1 + 1 * 0 = 0; rw [e0]
  | ⟨1, _⟩ => show win1_6.index t (1 : Fin 2) * 125 + 1 * k.val = k.val; rw [e1]; omega

/-- Window 7's block is its whole array at every point. -/
theorem blk7 (c : Dev nD) (t : Fin cfg1.N) (a : Fin 64) (k : Fin 125) :
    (iblk1 V c 7 t : Vec Ideal S64x125 .bf16) (ix2 a k) = mkin V c a k := by
  obtain ⟨-, -, -, -, -, -, -, -, -, -, -, -, -, -, -, -, -, -, e0, e1⟩ := idx_facts t
  unfold iblk1 mkin
  rw [View.read_apply]
  show (V c main_v1 : S64x125.Idx → EReal) (((cfg1.win 7).blk t).view.emb (ix2 a k)) = (V c main_v1 : S64x125.Idx → EReal) (ix2 a k)
  refine congrArg _ (funext fun d => Fin.ext ?_)
  match d with
  | ⟨0, _⟩ => show win1_7.index t (0 : Fin 2) * 64 + 1 * a.val = a.val; rw [e0]; omega
  | ⟨1, _⟩ => show win1_7.index t (1 : Fin 2) * 125 + 1 * k.val = k.val; rw [e1]; omega

/-! ## From the blocks to the array -/

/-- What the output array ends holding: the kernel's second stage of the arrays it read, index by index. -/
def outFn (c : Dev nD) : S16384x125.Idx → EReal := fun i =>
  kernelOut (hin V c) (sin V c) (qin V c) (gin V c) (bein V c) (wcin V c) (bcin V c) (mkin V c) (ctin V c)
    ⟨(i 0).val, idx2_lt0 i⟩ ⟨(i 1).val, idx2_lt1 i⟩

/-- What point t writes back is block t of that function. -/
theorem flushed_eq (c : Dev nD) (t : Fin cfg1.N) :
    (dat1 V c).flushed 9 t = ((cfg1.win 9).blk t).view.read (Elt Ideal) (outFn V c) := by
  show (cfg1.win 9).cut (grid1.coords t) ((dat1 V c).after 9 t) = _
  rw [after1_9]
  funext y
  obtain ⟨p, q, rfl⟩ : ∃ (p : Fin 2048) (q : Fin 125), y = ix2 p q := ⟨y 0, y 1, eq_ix2 y⟩
  have hN : grid1.N = 8 := N_1
  have ht : t.val < 8 := hN ▸ t.isLt
  have hp : p.val < 2048 := p.isLt
  obtain ⟨e0, e1, -⟩ := idx_facts t
  have hemb : ((cfg1.win 9).blk t).view.emb (ix2 p q) = ix2 (⟨t.val * 2048 + p.val, by omega⟩ : Fin 16384) q :=
    funext fun a => Fin.ext (by
      match a with
      | ⟨0, _⟩ => show win1_9.index t (0 : Fin 2) * 2048 + 1 * p.val = t.val * 2048 + p.val; rw [e0]; omega
      | ⟨1, _⟩ => show win1_9.index t (1 : Fin 2) * 125 + 1 * q.val = q.val; rw [e1]; omega)
  rw [View.read_apply, hemb]
  show (out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) : Vec Ideal S2048x125 .f32) (ix2 p q)
    = kernelOut (hin V c) (sin V c) (qin V c) (gin V c) (bein V c) (wcin V c) (bcin V c) (mkin V c) (ctin V c)
        (⟨t.val * 2048 + p.val, by omega⟩ : Fin 16384) q
  exact out_apply _ _ _ _ _ _ _ _ _ _ _ _ _ _ _ _ _ _ _ p q
    (fun k => blk0 V c t p k _ rfl) (blk1 V c t) (blk2 V c t) (blk3 V c t) (blk4 V c t) (blk5 V c t) (blk6 V c t) (blk7 V c t)
    (blk8 V c t p _ rfl)

/-- An index of the array is in point t's block iff each coordinate is in the block's range on its axis. -/
theorem mem_blk9 (t : Fin cfg1.N) (i : S16384x125.Idx) :
    i ∈ ((cfg1.win 9).blk t).view.set ↔ ∀ a : Fin 2, win1_9.index t a * S2048x125.size a ≤ (i a).val
      ∧ (i a).val < win1_9.index t a * S2048x125.size a + S2048x125.size a := by
  show i ∈ ((View.whole main_v9).slice (win1_9.rect t)).set ↔ _
  rw [View.set_slice_whole, Rect.mem_set_unit]
  exact Iff.rfl

/-- Row r of the array is in the block of point r / 2048. -/
theorem cover (i : S16384x125.Idx) :
    ∃ t : Fin cfg1.N, (cfg1.win 9).flush t = true ∧ i ∈ ((cfg1.win 9).blk t).view.set := by
  have hi0 : (i 0).val < 16384 := (i 0).isLt
  have hi1 : (i 1).val < 125 := (i 1).isLt
  have hN : grid1.N = 8 := N_1
  have hlt : (i 0).val / 2048 < grid1.N := by rw [hN]; omega
  refine ⟨⟨(i 0).val / 2048, hlt⟩, flush1_9 _, ?_⟩
  rw [mem_blk9]
  obtain ⟨e0, e1, -⟩ := idx_facts ⟨(i 0).val / 2048, hlt⟩
  intro a
  match a with
  | ⟨0, _⟩ =>
    show win1_9.index ⟨(i 0).val / 2048, hlt⟩ (0 : Fin 2) * 2048 ≤ (i 0).val
      ∧ (i 0).val < win1_9.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win1_9.index ⟨(i 0).val / 2048, hlt⟩ (1 : Fin 2) * 125 ≤ (i 1).val
      ∧ (i 1).val < win1_9.index ⟨(i 0).val / 2048, hlt⟩ (1 : Fin 2) * 125 + 125
    rw [e1]
    omega

/-- The output array after the run. -/
theorem final (c : Dev nD) : ((dat1 V c).arrAt 9 cfg1.N : S16384x125.Idx → EReal) = outFn V c :=
  (dat1 V c).arrAt_eq_of_cover 9 (outFn V c) (fun t _ => flushed_eq V c t) cover

/-- After the second stage its output array holds, entry by entry, the masked logits computed from the arrays it read. -/
theorem out_arr (c : Dev nD) (r : Fin 16384) (j : Fin 125) :
    ((dat1 V c).arrAt 9 cfg1.N : S16384x125.Idx → EReal) (ix2 r j)
      = kernelOut (hin V c) (sin V c) (qin V c) (gin V c) (bein V c) (wcin V c) (bcin V c) (mkin V c) (ctin V c) r j := by
  exact congrFun (final V c) (ix2 r j)

end Cert.Region1

end
-- ==== Proof.Glue.lean ====
import proofs.«426521_j8065948582254_3_alg».proof.Proof.Gen.KernelIdeal.Frame
import proofs.«426521_j8065948582254_3_alg».proof.Proof.Spec
import proofs.«426521_j8065948582254_3_alg».proof.Proof.Region0
import proofs.«426521_j8065948582254_3_alg».proof.Proof.Region1
import Idealize.ShloMosaic.Lib.ValueIdx
import Idealize.ShloMosaic.Lib.Pipeline.Value
import Idealize.ShloMosaic.Lib.StableHlo.Run

set_option maxRecDepth 16384

noncomputable section

namespace Cert.Glue

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-! ## What the host's eight operations leave in their result buffers, read at an index -/

/-- The bias row of the first layer, re-laid as one row of 512: entry (0,k) is entry k of the argument. -/
private theorem W1_v4_apply (c : Dev nD) (k : Fin 512) :
    (W1 m ρ c (Proc.devRef .tc main_v4) : S1x512.Idx → EReal) (ix2 (0 : Fin 1) k)
      = m ((c : Thread nD τ).loc main_arg4) (ix1 k) := by
  have e : (W1 m ρ c (Proc.devRef .tc main_v4) : S1x512.Idx → EReal)
      = shapeCast S1x512 (W0 m ρ c (Proc.devRef .tc main_arg4) : S512.Idx → EReal) shapeCasts_S512_S1x512 := by
    show StableHlo.after hostOps0 (W0 m ρ c) (Proc.devRef .tc main_v4) = _
    after_results; rfl
  rw [e]
  exact shapeCast_apply _ _ _ (ix1 k) (by
    rw [Shape.rowMajor_val_two, Shape.rowMajor_val_one]; show k.val = 0 * 512 + k.val; omega)

/-- γ re-laid as one row of 512. -/
private theorem W1_v5_apply (c : Dev nD) (k : Fin 512) :
    (W1 m ρ c (Proc.devRef .tc main_v5) : S1x512.Idx → EReal) (ix2 (0 : Fin 1) k)
      = m ((c : Thread nD τ).loc main_arg5) (ix1 k) := by
  have e : (W1 m ρ c (Proc.devRef .tc main_v5) : S1x512.Idx → EReal)
      = shapeCast S1x512 (W0 m ρ c (Proc.devRef .tc main_arg5) : S512.Idx → EReal) shapeCasts_S512_S1x512 := by
    show StableHlo.after hostOps0 (W0 m ρ c) (Proc.devRef .tc main_v5) = _
    after_results; rfl
  rw [e]
  exact shapeCast_apply _ _ _ (ix1 k) (by
    rw [Shape.rowMajor_val_two, Shape.rowMajor_val_one]; show k.val = 0 * 512 + k.val; omega)

/-- β re-laid as one row of 512. -/
private theorem W1_v6_apply (c : Dev nD) (k : Fin 512) :
    (W1 m ρ c (Proc.devRef .tc main_v6) : S1x512.Idx → EReal) (ix2 (0 : Fin 1) k)
      = m ((c : Thread nD τ).loc main_arg6) (ix1 k) := by
  have e : (W1 m ρ c (Proc.devRef .tc main_v6) : S1x512.Idx → EReal)
      = shapeCast S1x512 (W0 m ρ c (Proc.devRef .tc main_arg6) : S512.Idx → EReal) shapeCasts_S512_S1x512 := by
    show StableHlo.after hostOps0 (W0 m ρ c) (Proc.devRef .tc main_v6) = _
    after_results; rfl
  rw [e]
  exact shapeCast_apply _ _ _ (ix1 k) (by
    rw [Shape.rowMajor_val_two, Shape.rowMajor_val_one]; show k.val = 0 * 512 + k.val; omega)

/-- The second layer's bias re-laid as one row of 125. -/
private theorem W1_v7_apply (c : Dev nD) (j : Fin 125) :
    (W1 m ρ c (Proc.devRef .tc main_v7) : S1x125.Idx → EReal) (ix2 (0 : Fin 1) j)
      = m ((c : Thread nD τ).loc main_arg8) (ix1 j) := by
  have e : (W1 m ρ c (Proc.devRef .tc main_v7) : S1x125.Idx → EReal)
      = shapeCast S1x125 (W0 m ρ c (Proc.devRef .tc main_arg8) : S125.Idx → EReal) shapeCasts_S125_S1x125 := by
    show StableHlo.after hostOps0 (W0 m ρ c) (Proc.devRef .tc main_v7) = _
    after_results; rfl
  rw [e]
  exact shapeCast_apply _ _ _ (ix1 j) (by
    rw [Shape.rowMajor_val_two, Shape.rowMajor_val_one]; show j.val = 0 * 125 + j.val; omega)

/-- The category words re-laid as one column of 16384. -/
private theorem W1_v0_apply (c : Dev nD) (r : Fin 16384) :
    (W1 m ρ c (Proc.devRef .tc main_v0) : S16384x1.Idx → BitVec 32) (ix2 r (0 : Fin 1))
      = m ((c : Thread nD τ).loc main_arg1) (ix1 r) := by
  have e : (W1 m ρ c (Proc.devRef .tc main_v0) : S16384x1.Idx → BitVec 32)
      = shapeCast S16384x1 (W0 m ρ c (Proc.devRef .tc main_arg1) : S16384.Idx → BitVec 32) shapeCasts_S16384_S16384x1 := by
    show StableHlo.after hostOps0 (W0 m ρ c) (Proc.devRef .tc main_v0) = _
    after_results; rfl
  rw [e]
  exact shapeCast_apply _ _ _ (ix1 r) (by
    rw [Shape.rowMajor_val_two, Shape.rowMajor_val_one]; show r.val = r.val * 1 + 0; omega)

/-- The first layer's weights narrowed to the shorter format: over the extended reals the same numbers. -/
private theorem W1_v2_apply (c : Dev nD) (d : Fin 2048) (k : Fin 512) :
    (W1 m ρ c (Proc.devRef .tc main_v2) : S2048x512.Idx → EReal) (ix2 d k)
      = m ((c : Thread nD τ).loc main_arg3) (ix2 d k) := by
  show StableHlo.after hostOps0 (W0 m ρ c) (Proc.devRef .tc main_v2) (ix2 d k) = _
  after_results; rfl

/-- The second layer's weights narrowed to the shorter format: the same numbers. -/
private theorem W1_v3_apply (c : Dev nD) (k : Fin 512) (j : Fin 125) :
    (W1 m ρ c (Proc.devRef .tc main_v3) : S512x125.Idx → EReal) (ix2 k j)
      = m ((c : Thread nD τ).loc main_arg7) (ix2 k j) := by
  show StableHlo.after hostOps0 (W0 m ρ c) (Proc.devRef .tc main_v3) (ix2 k j) = _
  after_results; rfl

/-- The mask table's bits as numbers. -/
private theorem W1_v1_apply (c : Dev nD) (q : Fin 64) (j : Fin 125) :
    (W1 m ρ c (Proc.devRef .tc main_v1) : S64x125.Idx → EReal) (ix2 q j)
      = maskNum (fun q j => m ((c : Thread nD τ).loc main_arg2) (ix2 q j)) q j := by
  show StableHlo.after hostOps0 (W0 m ρ c) (Proc.devRef .tc main_v1) (ix2 q j) = _
  after_results; rfl

/-- No host operation writes the batch of inputs. -/
private theorem W1_arg0 (c : Dev nD) :
    W1 m ρ c (Proc.devRef .tc main_arg0) = m ((c : Thread nD τ).loc main_arg0) := by
  show StableHlo.after hostOps0 (W0 m ρ c) (Proc.devRef .tc main_arg0) = _
  after_results

/-! ## The contents the second stage finds, and the whole program's result -/

/-- The contents the program's last boundary holds at the result's buffer are `kernelFn` of the nine launch arguments,
    entry by entry: the second stage's result over the first stage's three output arrays and the host's re-laid and
    re-typed copies of the arguments. -/
theorem kernel_value (c : Dev nD) (r : Fin 16384) (j : Fin 125) :
    (W3 m ρ c (Proc.devRef .tc main_v9) : S16384x125.Idx → EReal) (ix2 r j)
      = kernelFn (fun r d => m ((c : Thread nD τ).loc main_arg0) (ix2 r d)) (fun d k => m ((c : Thread nD τ).loc main_arg3) (ix2 d k))
          (fun k => m ((c : Thread nD τ).loc main_arg4) (ix1 k)) (fun k => m ((c : Thread nD τ).loc main_arg5) (ix1 k))
          (fun k => m ((c : Thread nD τ).loc main_arg6) (ix1 k)) (fun k j => m ((c : Thread nD τ).loc main_arg7) (ix2 k j))
          (fun j => m ((c : Thread nD τ).loc main_arg8) (ix1 j)) (fun q j => m ((c : Thread nD τ).loc main_arg2) (ix2 q j))
          (fun r => m ((c : Thread nD τ).loc main_arg1) (ix1 r)) r j := by
  -- the result buffer is the second stage's output array, which holds the masked logits of what that stage read
  have h1 : W3 m ρ c (Proc.devRef .tc main_v9) = (dat1 (V2 m ρ) c).arrAt 9 cfg1.N := W3_arr m ρ c 9
  rw [h1, Cert.Region1.out_arr (V2 m ρ) c r j]
  -- what the first stage read: the batch as launched, the narrowed weights, the bias as a row
  have hx : Region0.xin (V1 m ρ) c = fun r d => m ((c : Thread nD τ).loc main_arg0) (ix2 r d) := by
    funext r d
    show W1 m ρ c (Proc.devRef .tc main_arg0) (ix2 r d) = _
    rw [W1_arg0]
  have hw : Region0.win (V1 m ρ) c = fun d k => m ((c : Thread nD τ).loc main_arg3) (ix2 d k) := by
    funext d k; exact W1_v2_apply m ρ c d k
  have hb : Region0.bin (V1 m ρ) c = fun k => m ((c : Thread nD τ).loc main_arg4) (ix1 k) := by
    funext k; exact W1_v4_apply m ρ c k
  -- the first stage's three output arrays, as the second stage finds them
  have hH : Region1.hin (V2 m ρ) c
      = fc (fun r d => m ((c : Thread nD τ).loc main_arg0) (ix2 r d)) (fun d k => m ((c : Thread nD τ).loc main_arg3) (ix2 d k))
          (fun k => m ((c : Thread nD τ).loc main_arg4) (ix1 k)) := by
    funext r k
    show W2 m ρ c (Proc.devRef .tc main_v8_0) (ix2 r k) = _
    rw [show W2 m ρ c (Proc.devRef .tc main_v8_0) = (dat0 (V1 m ρ) c).arrAt 3 cfg0.N from W2_arr m ρ c 3,
      Region0.h_arr (V1 m ρ) c r k, hx, hw, hb]
  have hS : Region1.sin (V2 m ρ) c
      = psum (fc (fun r d => m ((c : Thread nD τ).loc main_arg0) (ix2 r d)) (fun d k => m ((c : Thread nD τ).loc main_arg3) (ix2 d k))
          (fun k => m ((c : Thread nD τ).loc main_arg4) (ix1 k))) := by
    funext q k
    show W2 m ρ c (Proc.devRef .tc main_v8_1) (ix2 q k) = _
    rw [show W2 m ρ c (Proc.devRef .tc main_v8_1) = (dat0 (V1 m ρ) c).arrAt 4 cfg0.N from W2_arr m ρ c 4,
      Region0.sum_arr (V1 m ρ) c q k, hx, hw, hb]
  have hQ : Region1.qin (V2 m ρ) c
      = psumsq (fc (fun r d => m ((c : Thread nD τ).loc main_arg0) (ix2 r d)) (fun d k => m ((c : Thread nD τ).loc main_arg3) (ix2 d k))
          (fun k => m ((c : Thread nD τ).loc main_arg4) (ix1 k))) := by
    funext q k
    show W2 m ρ c (Proc.devRef .tc main_v8_2) (ix2 q k) = _
    rw [show W2 m ρ c (Proc.devRef .tc main_v8_2) = (dat0 (V1 m ρ) c).arrAt 5 cfg0.N from W2_arr m ρ c 5,
      Region0.sumsq_arr (V1 m ρ) c q k, hx, hw, hb]
  -- the other six: the first stage leaves them as the host made them
  have hg : Region1.gin (V2 m ρ) c = fun k => m ((c : Thread nD τ).loc main_arg5) (ix1 k) := by
    funext k
    show W2 m ρ c (Proc.devRef .tc main_v5) (ix2 (0 : Fin 1) k) = _
    rw [W2_of_ne m ρ c main_v5 (by decide)]; exact W1_v5_apply m ρ c k
  have hbe : Region1.bein (V2 m ρ) c = fun k => m ((c : Thread nD τ).loc main_arg6) (ix1 k) := by
    funext k
    show W2 m ρ c (Proc.devRef .tc main_v6) (ix2 (0 : Fin 1) k) = _
    rw [W2_of_ne m ρ c main_v6 (by decide)]; exact W1_v6_apply m ρ c k
  have hwc : Region1.wcin (V2 m ρ) c = fun k j => m ((c : Thread nD τ).loc main_arg7) (ix2 k j) := by
    funext k j
    show W2 m ρ c (Proc.devRef .tc main_v3) (ix2 k j) = _
    rw [W2_of_ne m ρ c main_v3 (by decide)]; exact W1_v3_apply m ρ c k j
  have hbc : Region1.bcin (V2 m ρ) c = fun j => m ((c : Thread nD τ).loc main_arg8) (ix1 j) := by
    funext j
    show W2 m ρ c (Proc.devRef .tc main_v7) (ix2 (0 : Fin 1) j) = _
    rw [W2_of_ne m ρ c main_v7 (by decide)]; exact W1_v7_apply m ρ c j
  have hmk : Region1.mkin (V2 m ρ) c = maskNum (fun q j => m ((c : Thread nD τ).loc main_arg2) (ix2 q j)) := by
    funext q j
    show W2 m ρ c (Proc.devRef .tc main_v1) (ix2 q j) = _
    rw [W2_of_ne m ρ c main_v1 (by decide)]; exact W1_v1_apply m ρ c q j
  have hct : Region1.ctin (V2 m ρ) c = fun r => m ((c : Thread nD τ).loc main_arg1) (ix1 r) := by
    funext r
    show W2 m ρ c (Proc.devRef .tc main_v0) (ix2 r (0 : Fin 1)) = _
    rw [W2_of_ne m ρ c main_v0 (by decide)]; exact W1_v0_apply m ρ c r
  rw [hH, hS, hQ, hg, hbe, hwc, hbc, hmk, hct]
  rfl

end Cert.Glue

end
-- ==== Proof.RefValue.lean ====
import proofs.«426521_j8065948582254_3_alg».proof.Proof.Gen.ReferenceIdeal.Run
import proofs.«426521_j8065948582254_3_alg».proof.Proof.Gen.ReferenceIdeal.Read
import proofs.«426521_j8065948582254_3_alg».proof.Proof.Spec
import Idealize.ShloMosaic.Lib.ValueIdx

noncomputable section

namespace Cert.RefValue

open Idealize.ShloMosaic Idealize.ShloMosaic.ValueIdx Cert.ReferenceIdeal Cert.Spec

/-! ## Words: the category word the reference looks the mask table up at -/

/-- The table row a start word names: the word read signed, clamped into 0..63. -/
private def rowOf (t : BitVec 32) : Fin 64 := ⟨min t.toInt.toNat 63, by omega⟩

/-- A signed comparison with the zero word says the word, read signed, is negative. -/
private theorem cmpi_slt_zero (w : BitVec 32) : IntOp.cmpi .slt w 0#32 = 1#1 ↔ w.toInt < 0 := by
  unfold IntOp.cmpi
  show BitVec.ofBool (w.slt 0#32) = 1#1 ↔ _
  rw [BitVec.slt_eq_decide]
  by_cases h : w.toInt < 0
  · simp [h]
  · simp [h]

/-- The word wrapped by +64 when negative, then read signed and clamped into 0..63, names the row `refRow`. -/
private theorem row_word (w : BitVec 32) :
    rowOf (Scalar.select (IntOp.cmpi .slt w 0#32) (IntOp.addi w 64#32) w) = refRow w := by
  refine Fin.ext ?_
  unfold rowOf refRow IntOp.addi
  show min _ 63 = (max (0 : Int) (min 63 _)).toNat
  by_cases hw : w.toInt < 0
  · rw [(cmpi_slt_zero w).2 hw, select_one, if_pos hw]; omega
  · rw [eq_zero_of_ne_one (fun e => hw ((cmpi_slt_zero w).1 e)), select_zero, if_neg hw]; omega

/-! ## The gather of whole table rows, read at an entry

The table is [64, 125], the start indices [16384, 1] (one row index per batch row), the result [16384, 125]: the table's
row axis is collapsed and named by the start index, its column axis is the result's offset axis. -/

private abbrev GD := gather_S64x125_S16384x1_S16384x125_1_0_n_n_0_1_1125

/-- On the table's row axis the operand coordinate is the start index read signed and clamped into 0..63. -/
private theorem gather_row_axis (idx : IVec S16384x1 32) (r : Fin 16384) (j : Fin 125) :
    GD.start (ix2 r j) idx (0 : Fin 2) + GD.batchCoord (ix2 r j) (0 : Fin 2) + GD.offCoord (ix2 r j) (0 : Fin 2)
      = (rowOf (idx (ix2 r (⟨0, Nat.one_pos⟩ : Fin 1)))).val := by
  rw [GatherDims.batchCoord_eq_zero _ _ _ (show (0 : Fin 2) ∉ GD.operandBatchingDims from List.not_mem_nil),
    GatherDims.offCoord_eq_zero _ _ _ (fun h => ((GatherDims.mem_sKept _ _).mp h).1
      (show (0 : Fin 2) ∈ GD.collapsedSliceDims from List.mem_singleton.mpr rfl))]
  simp only [Nat.add_zero]
  unfold GatherDims.start
  rw [dif_pos (show (0 : Fin 2) ∈ GD.startIndexMap from List.mem_singleton.mpr rfl)]
  have hsi : GD.siIdx (ix2 r j) ⟨List.idxOf (0 : Fin 2) GD.startIndexMap,
      List.idxOf_lt_length_iff.2 (show (0 : Fin 2) ∈ GD.startIndexMap from List.mem_singleton.mpr rfl)⟩
      = ix2 r (⟨0, Nat.one_pos⟩ : Fin 1) := by
    funext b; refine Fin.ext ?_
    match b with
    | ⟨0, _⟩ => rfl
    | ⟨1, _⟩ => rfl
  rw [hsi]
  rfl

/-- On the table's column axis the operand coordinate is the result's column (no start index names that axis). -/
private theorem gather_col_axis (idx : IVec S16384x1 32) (r : Fin 16384) (j : Fin 125) :
    GD.start (ix2 r j) idx (1 : Fin 2) + GD.batchCoord (ix2 r j) (1 : Fin 2) + GD.offCoord (ix2 r j) (1 : Fin 2)
      = j.val := by
  rw [GatherDims.batchCoord_eq_zero _ _ _ (show (1 : Fin 2) ∉ GD.operandBatchingDims from List.not_mem_nil)]
  have hs : GD.start (ix2 r j) idx (1 : Fin 2) = 0 := by
    unfold GatherDims.start
    rw [dif_neg (show (1 : Fin 2) ∉ GD.startIndexMap from
      fun h => absurd (List.mem_singleton.mp h) (fun e => Nat.one_ne_zero (congrArg Fin.val e)))]
  have ho : GD.offCoord (ix2 r j) (1 : Fin 2) = j.val := by
    unfold GatherDims.offCoord
    rw [dif_pos (show (1 : Fin 2) ∈ GD.sKept from (GatherDims.mem_sKept _ _).mpr
      ⟨fun h => absurd (List.mem_singleton.mp h) (fun e => Nat.one_ne_zero (congrArg Fin.val e)), List.not_mem_nil⟩)]
    rfl
  rw [hs, ho]
  simp

/-- The gather read at (r, j): column j of the table row the start index names. -/
private theorem gather_apply (x : S64x125.Idx → BitVec 1) (idx : IVec S16384x1 32) (r : Fin 16384) (j : Fin 125) :
    Host.gather GD x idx (ix2 r j) = x (ix2 (rowOf (idx (ix2 r (⟨0, Nat.one_pos⟩ : Fin 1)))) j) := by
  unfold Host.gather
  congr 1
  funext a
  refine Fin.ext ?_
  match a with
  | ⟨0, _⟩ => exact gather_row_axis idx r j
  | ⟨1, _⟩ => exact gather_col_axis idx r j

/-! ## The reference's stages, read at an entry -/

section Stages

variable (x0 : (⟨S16384x2048, .f32⟩ : BufTy).Contents (Elt Ideal)) (x1 : (⟨S16384, .i32⟩ : BufTy).Contents (Elt Ideal))
  (x2 : (⟨S64x125, .i1⟩ : BufTy).Contents (Elt Ideal)) (x3 : (⟨S2048x512, .f32⟩ : BufTy).Contents (Elt Ideal))
  (x4 x5 x6 : (⟨S512, .f32⟩ : BufTy).Contents (Elt Ideal)) (x7 : (⟨S512x125, .f32⟩ : BufTy).Contents (Elt Ideal))
  (x8 : (⟨S125, .f32⟩ : BufTy).Contents (Elt Ideal))

/-- The first linear layer: the contraction over the 2048 features plus the bias of the column. -/
private theorem v3_at (r : Fin 16384) (k : Fin 512) :
    Read.val_main_v3 (F := Ideal) x0 x3 x4 (ix2 r k)
      = fc (fun r d => x0 (ix2 r d)) (fun d k => x3 (ix2 d k)) (fun k => x4 (ix1 k)) r k := by
  rw [Read.val_main_v3_apply, Read.val_main_v0_apply, Read.val_main_v2_apply, Read.val_main_v1_apply]
  have el : ∀ d : Fin 2048, Read.lidx_main_v0 (ix2 r k) d = ix2 r d :=
    fun d => funext fun a => Fin.ext (by match a with | ⟨0, _⟩ => rfl | ⟨1, _⟩ => rfl)
  have er : ∀ d : Fin 2048, Read.ridx_main_v0 (ix2 r k) d = ix2 d k :=
    fun d => funext fun a => Fin.ext (by match a with | ⟨0, _⟩ => rfl | ⟨1, _⟩ => rfl)
  have eb : Read.idx_main_v1 (Read.idx_main_v2 (ix2 r k)) = ix1 k :=
    funext fun a => Fin.ext (by match a with | ⟨0, _⟩ => rfl)
  simp only [el, er, eb, Ideal.addf_def]
  rfl

/-- The column mean: the zero word plus the column's sum over the 16384 rows, divided by the batch-size word. -/
private theorem v6_at (k : Fin 512) :
    Read.val_main_v6 (F := Ideal) x0 x3 x4 (ix1 k)
      = rmean (fc (fun r d => x0 (ix2 r d)) (fun d k => x3 (ix2 d k)) (fun k => x4 (ix1 k))) k := by
  rw [Read.val_main_v6_apply, Read.val_main_v4_apply, Read.val_main_v5_apply, Read.val_main_cst_0_apply,
    Read.val_main_cst_apply]
  have e : ∀ r : Fin 16384, Read.idx_main_v4 (ix1 k) r = ix2 r k :=
    fun r => funext fun a => Fin.ext (by match a with | ⟨0, _⟩ => rfl | ⟨1, _⟩ => rfl)
  simp only [e, v3_at, Ideal.hostDivf_def, Ideal.ofBits_def]
  rfl

/-- The column variance: the sum of the squared deviations from the mean, divided by the batch-size word. -/
private theorem v13_at (k : Fin 512) :
    Read.val_main_v13 (F := Ideal) x0 x3 x4 (ix1 k)
      = rvar (fc (fun r d => x0 (ix2 r d)) (fun d k => x3 (ix2 d k)) (fun k => x4 (ix1 k))) k := by
  rw [Read.val_main_v13_apply, Read.val_main_v11_apply, Read.val_main_v12_apply, Read.val_main_cst_2_apply,
    Read.val_main_cst_1_apply]
  have e : ∀ r : Fin 16384, Read.idx_main_v11 (ix1 k) r = ix2 r k :=
    fun r => funext fun a => Fin.ext (by match a with | ⟨0, _⟩ => rfl | ⟨1, _⟩ => rfl)
  have em : ∀ r : Fin 16384, Read.idx_main_v7 (Read.idx_main_v8 (ix2 r k)) = ix1 k :=
    fun r => funext fun a => Fin.ext (by match a with | ⟨0, _⟩ => rfl)
  simp only [e, Read.val_main_v10_apply, Read.val_main_v9_apply, Read.val_main_v8_apply, Read.val_main_v7_apply, em,
    v3_at, v6_at, Ideal.hostDivf_def, Ideal.ofBits_def, Ideal.mulf_def, Ideal.subf_def]
  rfl

/-- The normalised, scaled, shifted and rectified activation. -/
private theorem v29_at (r : Fin 16384) (k : Fin 512) :
    Read.val_main_v29 (F := Ideal) x0 x3 x4 x5 x6 (ix2 r k)
      = ract (fc (fun r d => x0 (ix2 r d)) (fun d k => x3 (ix2 d k)) (fun k => x4 (ix1 k)))
          (fun k => x5 (ix1 k)) (fun k => x6 (ix1 k)) r k := by
  have em : Read.idx_main_v14 (Read.idx_main_v15 (ix2 r k)) = ix1 k :=
    funext fun a => Fin.ext (by match a with | ⟨0, _⟩ => rfl)
  have es : Read.idx_main_v20 (Read.idx_main_v21 (ix2 r k)) = ix1 k :=
    funext fun a => Fin.ext (by match a with | ⟨0, _⟩ => rfl)
  have eg : Read.idx_main_v23 (Read.idx_main_v24 (ix2 r k)) = ix1 k :=
    funext fun a => Fin.ext (by match a with | ⟨0, _⟩ => rfl)
  have eb : Read.idx_main_v26 (Read.idx_main_v27 (ix2 r k)) = ix1 k :=
    funext fun a => Fin.ext (by match a with | ⟨0, _⟩ => rfl)
  rw [Read.val_main_v29_apply, Read.val_main_v28_apply, Read.val_main_v25_apply, Read.val_main_v22_apply,
    Read.val_main_v16_apply, Read.val_main_v15_apply, Read.val_main_v14_apply, Read.val_main_v21_apply,
    Read.val_main_v20_apply, Read.val_main_v19_apply, Read.val_main_v18_apply, Read.val_main_v17_apply,
    Read.val_main_cst_3_apply, Read.val_main_v24_apply, Read.val_main_v23_apply, Read.val_main_v27_apply,
    Read.val_main_v26_apply, Read.val_main_call0_v0_apply, Read.val_main_call0_cst_apply,
    em, es, eg, eb, v3_at, v6_at, v13_at]
  simp only [Ideal.maximumf_def, Ideal.addf_def, Ideal.mulf_def, Ideal.subf_def, Ideal.hostUnary_rsqrt_def,
    Ideal.ofBits_def]
  rfl

/-- The second linear layer over the activations, plus the bias of the column. -/
private theorem v33_at (r : Fin 16384) (j : Fin 125) :
    Read.val_main_v33 (F := Ideal) x0 x3 x4 x5 x6 x7 x8 (ix2 r j)
      = rlogits (fc (fun r d => x0 (ix2 r d)) (fun d k => x3 (ix2 d k)) (fun k => x4 (ix1 k)))
          (fun k => x5 (ix1 k)) (fun k => x6 (ix1 k)) (fun k j => x7 (ix2 k j)) (fun j => x8 (ix1 j)) r j := by
  rw [Read.val_main_v33_apply, Read.val_main_v30_apply, Read.val_main_v32_apply, Read.val_main_v31_apply]
  have el : ∀ k : Fin 512, Read.lidx_main_v30 (ix2 r j) k = ix2 r k :=
    fun k => funext fun a => Fin.ext (by match a with | ⟨0, _⟩ => rfl | ⟨1, _⟩ => rfl)
  have er : ∀ k : Fin 512, Read.ridx_main_v30 (ix2 r j) k = ix2 k j :=
    fun k => funext fun a => Fin.ext (by match a with | ⟨0, _⟩ => rfl | ⟨1, _⟩ => rfl)
  have eb : Read.idx_main_v31 (Read.idx_main_v32 (ix2 r j)) = ix1 j :=
    funext fun a => Fin.ext (by match a with | ⟨0, _⟩ => rfl)
  simp only [el, er, eb, v29_at, Ideal.addf_def]
  rfl

/-- The mask bit the reference reads: the table at the row `refRow` of the batch row's category word, column j. -/
private theorem v40_at (r : Fin 16384) (j : Fin 125) :
    Read.val_main_v40 (F := Ideal) x1 x2 (ix2 r j) = x2 (ix2 (refRow (x1 (ix1 r))) j) := by
  unfold Read.val_main_v40
  rw [gather_apply, Read.val_main_v39_apply, Read.val_main_v38_apply, Read.val_main_v35_apply,
    Read.val_main_v37_apply, Read.val_main_v34_apply, Read.val_main_v36_apply, Read.val_main_c_apply,
    Read.val_main_c_4_apply]
  have e : Read.idx_main_v39 (ix2 r (⟨0, Nat.one_pos⟩ : Fin 1)) = ix1 r :=
    funext fun a => Fin.ext (by match a with | ⟨0, _⟩ => rfl)
  rw [e, row_word]

end Stages

/-- The reference's result, read at an entry, is `refFn` of its nine arguments read entry by entry. -/
theorem ref_value (x0 : (⟨S16384x2048, .f32⟩ : BufTy).Contents (Elt Ideal)) (x1 : (⟨S16384, .i32⟩ : BufTy).Contents (Elt Ideal))
    (x2 : (⟨S64x125, .i1⟩ : BufTy).Contents (Elt Ideal)) (x3 : (⟨S2048x512, .f32⟩ : BufTy).Contents (Elt Ideal))
    (x4 x5 x6 : (⟨S512, .f32⟩ : BufTy).Contents (Elt Ideal)) (x7 : (⟨S512x125, .f32⟩ : BufTy).Contents (Elt Ideal))
    (x8 : (⟨S125, .f32⟩ : BufTy).Contents (Elt Ideal)) (r : Fin 16384) (j : Fin 125) :
    Cert.ReferenceIdeal.Read.val_main_v41 (F := Ideal) x0 x1 x2 x3 x4 x5 x6 x7 x8 (ix2 r j)
      = refFn (fun r d => x0 (ix2 r d)) (fun d k => x3 (ix2 d k)) (fun k => x4 (ix1 k)) (fun k => x5 (ix1 k))
          (fun k => x6 (ix1 k)) (fun k j => x7 (ix2 k j)) (fun j => x8 (ix1 j)) (fun q j => x2 (ix2 q j))
          (fun r => x1 (ix1 r)) r j := by
  rw [Read.val_main_v41_apply, v40_at, v33_at, Read.val_main_call1_v0_apply, Read.val_main_cst_5_apply,
    Ideal.ofBits_def]
  rfl

end Cert.RefValue

end
-- ==== Proof.PreFacts.lean ====
import proofs.«426521_j8065948582254_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

variable [Cert.Pre_finite_inputs.Facts]

/-- The rank-0 shape has one index. -/
private instance subsingleton_scalarIdx : Subsingleton S_.Idx := ⟨fun a b => funext fun d => d.elim0⟩

/-- The word 0x7F800000 denotes +∞. -/
private theorem inf_word : Ideal.ofBits .f32 0x7F800000#32 = (⊤ : EReal) := by
  simp [Ideal.ofBits, Ideal.ieee]

/-- An extended real whose absolute value max x (−x) is strictly below +∞ is a real number. -/
private theorem real_of_abs_lt (x : EReal)
    (h : Ideal.cmp .olt (max x (-x)) (Ideal.ofBits .f32 0x7F800000#32) = 1#1) : ∃ v : ℝ, x = (v : EReal) := by
  rw [inf_word] at h
  have hlt : max x (-x) < (⊤ : EReal) := by
    simpa [Ideal.cmp, StableHlo.Predicate.ofBool_eq_one_iff] using h
  induction x using EReal.rec with
  | bot => simp at hlt
  | coe r => exact ⟨r, rfl⟩
  | top => simp at hlt

/-- One float argument's conjunct: "all |a| < +∞" reduced by and to 1 says every entry of a is a real. -/
private theorem real_of_all {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi (cmpf .olt (Host.absf a) (broadcastInDim s ![] hb (constant S_ .f32 0x7F800000#32)))
          (constantI S_ 1 1#1) hr h0 ix0 = 1#1) (i : s.Idx) : ∃ v : ℝ, a i = (v : EReal) :=
  real_of_abs_lt (a i) (Host.reduce_andi_all _ _ hr h0 ix0 e i)

/-- A 32-bit word that is ≥ 0 and < 64 as signed comparisons say lies, read signed, in 0..63. -/
private theorem range_of_cmpi (w : BitVec 32) (h1 : IntOp.cmpi .sge w 0#32 = 1#1) (h2 : IntOp.cmpi .slt w 64#32 = 1#1) :
    0 ≤ w.toInt ∧ w.toInt < 64 := by
  simp only [IntOp.cmpi, StableHlo.Predicate.ofBool_eq_one_iff, BitVec.sle, BitVec.slt, decide_eq_true_eq] at h1 h2
  have e0 : (0#32 : BitVec 32).toInt = 0 := by decide
  have e64 : (64#32 : BitVec 32).toInt = 64 := by decide
  rw [e0] at h1; rw [e64] at h2
  exact ⟨h1, h2⟩

/-- What the precondition says, entry by entry: every float argument holds real numbers, and every category word, read
    signed, lies in 0..63. -/
theorem of_pre (a0 : FVec Ideal S16384x2048 .f32) (a1 : IVec S16384 32) (a2 : IVec S64x125 1) (a3 : FVec Ideal S2048x512 .f32)
    (a4 a5 a6 : FVec Ideal S512 .f32) (a7 : FVec Ideal S512x125 .f32) (a8 : FVec Ideal S125 .f32)
    (h : Cert.Pre_finite_inputs.fn (F := Ideal) a0 a1 a2 a3 a4 a5 a6 a7 a8 = fun _ => 1#1) :
    (∀ i, ∃ v : ℝ, a0 i = (v : EReal)) ∧ (∀ i, ∃ v : ℝ, a3 i = (v : EReal)) ∧ (∀ i, ∃ v : ℝ, a4 i = (v : EReal))
      ∧ (∀ i, ∃ v : ℝ, a5 i = (v : EReal)) ∧ (∀ i, ∃ v : ℝ, a6 i = (v : EReal)) ∧ (∀ i, ∃ v : ℝ, a7 i = (v : EReal))
      ∧ (∀ i, ∃ v : ℝ, a8 i = (v : EReal)) ∧ (∀ i, 0 ≤ (a1 i).toInt ∧ (a1 i).toInt < 64) := by
  have h0 := congrFun h ValueIdx.ix0
  dsimp only [fn, fn_part1, fn_part2] at h0
  -- the result is the and of eight conjuncts, nested to the left
  obtain ⟨h0, c1⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨c0, c3⟩ := IntOp.andi_eq_one.1 h0
  refine ⟨real_of_all a0 _ _ _ c0, real_of_all a3 _ _ _ c3, real_of_all a4 _ _ _ c4, real_of_all a5 _ _ _ c5,
    real_of_all a6 _ _ _ c6, real_of_all a7 _ _ _ c7, real_of_all a8 _ _ _ c8, fun i => ?_⟩
  have hi := Host.reduce_andi_all _ _ _ _ ix0 c1 i
  obtain ⟨g1, g2⟩ := IntOp.andi_eq_one.1 hi
  exact range_of_cmpi (a1 i) g1 g2

end Cert.PreFacts

end
-- ==== Proof.Sums.lean ====
import proofs.«426521_j8065948582254_3_alg».proof.Proof.Spec
import Mathlib.Algebra.BigOperators.Fin
import Mathlib.Data.Fintype.BigOperators
import Mathlib.Logic.Equiv.Fin.Basic

noncomputable section

namespace Cert.Sums

open Idealize.ShloMosaic Cert.Spec

/-! ## The coercion ℝ → EReal through a finite sum -/

/-- A finite sum of reals, read in the extended reals term by term, is the extended real of the real sum. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- On real-valued arguments the first linear layer is real-valued. -/
theorem fc_real (x : Fin 16384 → Fin 2048 → EReal) (W : Fin 2048 → Fin 512 → EReal) (b : Fin 512 → EReal)
    (hx : ∀ r d, ∃ v : ℝ, x r d = (v : EReal)) (hW : ∀ d k, ∃ v : ℝ, W d k = (v : EReal)) (hb : ∀ k, ∃ v : ℝ, b k = (v : EReal)) :
    ∃ h' : Fin 16384 → Fin 512 → ℝ, ∀ r k, fc x W b r k = (h' r k : EReal) := by
  choose xv hxv using hx
  choose Wv hWv using hW
  choose bv hbv using hb
  refine ⟨fun r k => (∑ d : Fin 2048, xv r d * Wv d k) + bv k, fun r k => ?_⟩
  unfold fc
  simp only [hxv, hWv, hbv]
  rw [EReal.coe_add, ← coe_sum]
  simp only [EReal.coe_mul]

/-! ## The literal 1/8 -/

/-- The word 0x3E000000 denotes the real 1/8. -/
private theorem cEighth_eq : cEighth = ((1 / 8 : ℝ) : EReal) := by
  unfold cEighth
  simp [Ideal.ofBits, Ideal.ieee, -EReal.coe_mul]; norm_num

/-! ## The tiling of the 16384 rows by 2 halves × 8 blocks × 1024 rows -/

/-- Row r of block i of half a. -/
private def tile (a : Fin 2) (i : Fin 8) (r : Fin 1024) : Fin 16384 :=
  ⟨a.val * 8192 + i.val * 1024 + r.val, by have := a.isLt; have := i.isLt; have := r.isLt; omega⟩

/-- Table row j + 8a belongs to half a. -/
private theorem row_pair (a : Fin 2) (j : Fin 8) (i : Fin 8) (r : Fin 1024) :
    row (finProdFinEquiv (a, j)) i r = tile a i r := by
  apply Fin.ext
  have := a.isLt; have := j.isLt
  simp only [row, tile, finProdFinEquiv, Equiv.coe_fn_mk]
  omega

/-- The tiles are the rows: index a·8192 + i·1024 + r runs once through 0..16383. -/
private theorem sum_tile (f : Fin 16384 → ℝ) :
    (∑ b : Fin 16384, f b) = ∑ a : Fin 2, ∑ i : Fin 8, ∑ r : Fin 1024, f (tile a i r) := by
  have h1 : (∑ b : Fin 16384, f b) = ∑ p : Fin 2 × Fin 8192, f (finProdFinEquiv p) :=
    (Equiv.sum_comp (finProdFinEquiv (m := 2) (n := 8192)) f).symm
  rw [h1, Fintype.sum_prod_type]
  refine Finset.sum_congr rfl fun a _ => ?_
  have h2 : (∑ c : Fin 8192, f (finProdFinEquiv (a, c)))
      = ∑ p : Fin 8 × Fin 1024, f (finProdFinEquiv (a, finProdFinEquiv p)) :=
    (Equiv.sum_comp (finProdFinEquiv (m := 8) (n := 1024)) (fun c => f (finProdFinEquiv (a, c)))).symm
  rw [h2, Fintype.sum_prod_type]
  refine Finset.sum_congr rfl fun i _ => Finset.sum_congr rfl fun r _ => congrArg f (Fin.ext ?_)
  simp only [tile, finProdFinEquiv, Equiv.coe_fn_mk]
  omega

/-- Over the reals: the 16 table rows added give 8 times the sum over the whole batch. -/
private theorem sum_rows (f : Fin 16384 → ℝ) :
    (∑ q : Fin 16, ∑ i : Fin 8, ∑ r : Fin 1024, f (row q i r)) = 8 * ∑ b : Fin 16384, f b := by
  have h1 : (∑ q : Fin 16, ∑ i : Fin 8, ∑ r : Fin 1024, f (row q i r))
      = ∑ p : Fin 2 × Fin 8, ∑ i : Fin 8, ∑ r : Fin 1024, f (row (finProdFinEquiv p) i r) :=
    (Equiv.sum_comp (finProdFinEquiv (m := 2) (n := 8))
      (fun q => ∑ i : Fin 8, ∑ r : Fin 1024, f (row q i r))).symm
  rw [h1, Fintype.sum_prod_type, sum_tile, Finset.mul_sum]
  refine Finset.sum_congr rfl fun a _ => ?_
  simp only [row_pair]
  rw [Finset.sum_const, Finset.card_univ, Fintype.card_fin, nsmul_eq_mul]
  norm_num

/-- The same in the extended reals, with the scaling by 1/8. -/
private theorem tot_of_real (f : Fin 16384 → ℝ) :
    (∑ q : Fin 16, ∑ i : Fin 8, ∑ r : Fin 1024, ((f (row q i r) : ℝ) : EReal)) * cEighth
      = ((∑ b : Fin 16384, f b : ℝ) : EReal) := by
  simp only [coe_sum]
  rw [sum_rows, cEighth_eq, ← EReal.coe_mul]
  exact congrArg (fun v : ℝ => (v : EReal)) (by ring)

/-- The 16 rows of the partial-sum table of a real-valued h, added and scaled by 1/8, are the column sum over the whole
    batch: each half's sum sits in 8 equal rows, and the two halves' blocks of 1024 rows tile the 16384 rows. -/
theorem tot_psum (h' : Fin 16384 → Fin 512 → ℝ) (k : Fin 512) :
    tot (psum fun r k => (h' r k : EReal)) k = ((∑ r : Fin 16384, h' r k : ℝ) : EReal) := by
  unfold tot psum
  exact tot_of_real fun r => h' r k

/-- The same for the table of sums of squares. -/
theorem tot_psumsq (h' : Fin 16384 → Fin 512 → ℝ) (k : Fin 512) :
    tot (psumsq fun r k => (h' r k : EReal)) k = ((∑ r : Fin 16384, h' r k * h' r k : ℝ) : EReal) := by
  unfold tot psumsq
  simp only [← EReal.coe_mul]
  exact tot_of_real fun r => h' r k * h' r k

end Cert.Sums

end
-- ==== Proof.Norm.lean ====
import proofs.«426521_j8065948582254_3_alg».proof.Proof.Spec
import Mathlib.Algebra.BigOperators.Ring.Finset
import Mathlib.Tactic.NormNum
import Mathlib.Tactic.Ring
import Mathlib.Tactic.Positivity

noncomputable section

namespace Cert.Norm

open Idealize.ShloMosaic Cert.Spec

/-! ## The literals, as the reals their words denote -/

private theorem cZero_eq : cZero = 0 := by
  simp [cZero, Ideal.ofBits, Ideal.ieee]

private theorem cInvN_eq : cInvN = ((1 / 16384 : ℝ) : EReal) := by
  simp [cInvN, Ideal.ofBits, Ideal.ieee, -EReal.coe_mul]; norm_num

private theorem cN_eq : cN = ((16384 : ℝ) : EReal) := by
  simp [cN, Ideal.ofBits, Ideal.ieee, -EReal.coe_mul]; norm_num

/-- The regulariser's word is sign 0, exponent 110, fraction 2606508: the real (2²³ + 2606508)·2⁻⁴⁰, which is positive. -/
private theorem cEps_eq : cEps = ((10995116 * (2 : ℝ) ^ (-40 : Int) : ℝ) : EReal) := by
  simp [cEps, Ideal.ofBits, Ideal.ieee, -EReal.coe_mul]

private theorem cEps_pos : (0 : ℝ) < 10995116 * (2 : ℝ) ^ (-40 : Int) := by positivity

/-! ## Coercion of a finite sum, and the reciprocal square root of a positive real -/

private theorem coe_finset_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

private theorem rsqrt_coe_pos {x : ℝ} (hx : 0 < x) :
    Ideal.rsqrt (x : EReal) = (((Real.sqrt x)⁻¹ : ℝ) : EReal) := by
  rw [Ideal.rsqrt_coe, if_neg (not_lt.mpr hx.le), if_neg hx.ne']

/-! ## The real identity: E[f²] − (E f)² is the mean squared deviation -/

private theorem meansq_sub_sqmean (f : Fin 16384 → ℝ) :
    (∑ r, f r * f r) * (1 / 16384) - (∑ r, f r) * (1 / 16384) * ((∑ r, f r) * (1 / 16384))
      = (∑ r, (f r - (∑ r, f r) * (1 / 16384)) * (f r - (∑ r, f r) * (1 / 16384))) * (1 / 16384) := by
  generalize hμ : (∑ r, f r) * (1 / 16384 : ℝ) = μ
  have hs : (∑ r, f r) = 16384 * μ := by rw [← hμ]; ring
  have h1 : (∑ r, (f r - μ) * (f r - μ))
      = (∑ r, f r * f r) - 2 * μ * (∑ r, f r) + 16384 * (μ * μ) := by
    have : ∀ r, (f r - μ) * (f r - μ) = f r * f r - 2 * μ * f r + μ * μ := fun r => by ring
    simp only [this]
    rw [Finset.sum_add_distrib, Finset.sum_sub_distrib, ← Finset.mul_sum, Finset.sum_const, Finset.card_univ,
      Fintype.card_fin, nsmul_eq_mul]
    norm_num
  rw [h1, hs]; ring

private theorem meansqdev_nonneg (f : Fin 16384 → ℝ) (μ : ℝ) :
    0 ≤ (∑ r, (f r - μ) * (f r - μ)) * (1 / 16384) :=
  mul_nonneg (Finset.sum_nonneg fun r _ => mul_self_nonneg _) (by norm_num)

/-- The kernel's normalised activation is the reference's, for a real-valued h whose batch sums the tables S, Q total to:
    E[h²] − mean² is the mean squared deviation (not negative, so the cut-off at 0 does nothing), and
    h·s + (β − mean·s) = (h − mean)·s + β with s = rsqrt(var + ε)·γ. -/
theorem kact_eq_ract (h' : Fin 16384 → Fin 512 → ℝ) (S Q : Fin 16 → Fin 512 → EReal) (g be : Fin 512 → EReal)
    (hS : ∀ k, tot S k = ((∑ r : Fin 16384, h' r k : ℝ) : EReal))
    (hQ : ∀ k, tot Q k = ((∑ r : Fin 16384, h' r k * h' r k : ℝ) : EReal))
    (hg : ∀ k, ∃ v : ℝ, g k = (v : EReal)) (hbe : ∀ k, ∃ v : ℝ, be k = (v : EReal)) (r : Fin 16384) (k : Fin 512) :
    kact (fun r k => (h' r k : EReal)) S Q g be r k = ract (fun r k => (h' r k : EReal)) g be r k := by
  obtain ⟨γ, hγ⟩ := hg k
  obtain ⟨β, hβ⟩ := hbe k
  -- the column's mean μ and its mean squared deviation v, as reals
  generalize hμ : (∑ r : Fin 16384, h' r k) * (1 / 16384 : ℝ) = μ
  generalize hv : (∑ r : Fin 16384, (h' r k - μ) * (h' r k - μ)) * (1 / 16384 : ℝ) = v
  have hv0 : 0 ≤ v := hv ▸ meansqdev_nonneg (fun r => h' r k) μ
  have hve : 0 < v + 10995116 * (2 : ℝ) ^ (-40 : Int) := add_pos_of_nonneg_of_pos hv0 cEps_pos
  -- the kernel's mean and variance
  have hkmean : kmean S k = (μ : EReal) := by
    rw [kmean, hS k, cInvN_eq, ← EReal.coe_mul, hμ]
  have hkvar : kvar S Q k = (v : EReal) := by
    have hid := meansq_sub_sqmean (fun r => h' r k)
    simp only [hμ] at hid
    rw [hv] at hid
    rw [kvar, hkmean, hQ k, cInvN_eq, cZero_eq, ← EReal.coe_mul, ← EReal.coe_mul, ← EReal.coe_sub, hid]
    exact max_eq_left (EReal.coe_nonneg.mpr hv0)
  -- the reference's mean and variance
  have hrmean : rmean (fun r k => (h' r k : EReal)) k = (μ : EReal) := by
    show Ideal.div (cZero + ∑ r : Fin 16384, (h' r k : EReal)) cN = _
    rw [cZero_eq, zero_add, coe_finset_sum, cN_eq, Ideal.div_coe (by norm_num), ← EReal.coe_mul, hμ]
  have hrvar : rvar (fun r k => (h' r k : EReal)) k = (v : EReal) := by
    show Ideal.div (cZero + ∑ r : Fin 16384, ((h' r k : EReal) - rmean (fun r k => (h' r k : EReal)) k)
      * ((h' r k : EReal) - rmean (fun r k => (h' r k : EReal)) k)) cN = _
    rw [hrmean]
    simp only [← EReal.coe_sub, ← EReal.coe_mul]
    rw [cZero_eq, zero_add, coe_finset_sum, cN_eq, Ideal.div_coe (by norm_num), ← EReal.coe_mul, hv]
  -- both activations over the reals
  show max ((h' r k : EReal) * kscale S Q g k + kshift S Q g be k) cZero
    = max (((h' r k : EReal) - rmean (fun r k => (h' r k : EReal)) k)
        * Ideal.rsqrt (rvar (fun r k => (h' r k : EReal)) k + cEps) * g k + be k) cZero
  rw [kshift, kscale, hkmean, hkvar, hrmean, hrvar, hγ, hβ, cEps_eq, ← EReal.coe_add, rsqrt_coe_pos hve]
  simp only [← EReal.coe_sub, ← EReal.coe_mul, ← EReal.coe_add]
  congr 2
  ring

end Cert.Norm

end
-- ==== Proof.Mask.lean ====
import proofs.«426521_j8065948582254_3_alg».proof.Proof.Spec

noncomputable section

namespace Cert.Mask

open Idealize.ShloMosaic Cert.Spec

/-- The threshold word denotes the real 1/2. -/
private theorem cHalf_eq : cHalf = ((1 / 2 : ℝ) : EReal) := by
  simp [cHalf, Ideal.ofBits, Ideal.ieee, -EReal.coe_mul]; norm_num

/-- A one-bit word is 0 or 1. -/
private theorem bit_cases : ∀ b : BitVec 1, b = 0#1 ∨ b = 1#1 := by decide

/-- A word whose signed reading is in 0..63 reads the same unsigned, and is below 64. -/
private theorem toNat_of_range (w : BitVec 32) (h0 : 0 ≤ w.toInt) (h1 : w.toInt < 64) :
    w.toInt = (w.toNat : Int) ∧ w.toNat < 64 := by
  have hlt := w.isLt
  rw [BitVec.toInt_eq_toNat_cond] at h0 h1 ⊢
  split_ifs at h0 h1 ⊢ <;> omega

/-- For such a word the reference's row is the word's own value. -/
private theorem refRow_val (w : BitVec 32) (h0 : 0 ≤ w.toInt) (h1 : w.toInt < 64) :
    (refRow w).val = w.toNat := by
  obtain ⟨he, hlt⟩ := toNat_of_range w h0 h1
  simp only [refRow]
  rw [if_neg (by omega)]
  omega

/-- Category `q` below 64 spells the word exactly when it is the word's value. -/
private theorem ofNat_eq_iff (w : BitVec 32) (hlt : w.toNat < 64) (q : Fin 64) :
    BitVec.ofNat 32 q.val = w ↔ q.val = w.toNat := by
  have hq := q.isLt
  constructor
  · intro h
    have := congrArg BitVec.toNat h
    rw [BitVec.toNat_ofNat, Nat.mod_eq_of_lt (by omega)] at this
    exact this
  · intro h
    apply BitVec.eq_of_toNat_eq
    rw [BitVec.toNat_ofNat, Nat.mod_eq_of_lt (by omega)]
    exact h

/-- For category words in 0..63 the kernel's indicator sum exceeds 1/2 exactly where the mask-table row the reference reads
    is set: the sum has one non-zero term, the table entry at the word's own row, which is 0 or 1. -/
theorem mask_iff (ct : Fin 16384 → BitVec 32) (m2 : Fin 64 → Fin 125 → BitVec 1)
    (hct : ∀ r, 0 ≤ (ct r).toInt ∧ (ct r).toInt < 64) (r : Fin 16384) (j : Fin 125) :
    cHalf < rowMask ct (maskNum m2) r j ↔ m2 (refRow (ct r)) j = 1#1 := by
  obtain ⟨h0, h1⟩ := hct r
  obtain ⟨he, hlt⟩ := toNat_of_range (ct r) h0 h1
  have hrow : refRow (ct r) = ⟨(ct r).toNat, hlt⟩ := Fin.ext (refRow_val (ct r) h0 h1)
  -- the sum collapses to the term at the word's own row
  have hsum : rowMask ct (maskNum m2) r j = maskNum m2 ⟨(ct r).toNat, hlt⟩ j := by
    unfold rowMask
    rw [Finset.sum_eq_single (⟨(ct r).toNat, hlt⟩ : Fin 64)]
    · unfold hot
      rw [if_pos ((ofNat_eq_iff (ct r) hlt _).2 rfl), one_mul]
    · intro q _ hq
      unfold hot
      rw [if_neg, zero_mul]
      intro h
      exact hq (Fin.ext ((ofNat_eq_iff (ct r) hlt q).1 h))
    · intro h; exact absurd (Finset.mem_univ _) h
  rw [hsum, hrow, cHalf_eq]
  unfold maskNum
  rcases bit_cases (m2 ⟨(ct r).toNat, hlt⟩ j) with hb | hb <;> rw [hb]
  · simp
  · have h : ((1 / 2 : ℝ) : EReal) < ((1 : ℝ) : EReal) := EReal.coe_lt_coe_iff.2 (by norm_num)
    simpa using h

end Cert.Mask

end
-- ==== Proof.Algebra.lean ====
import proofs.«426521_j8065948582254_3_alg».proof.Proof.Spec
import proofs.«426521_j8065948582254_3_alg».proof.Proof.Sums
import proofs.«426521_j8065948582254_3_alg».proof.Proof.Norm
import proofs.«426521_j8065948582254_3_alg».proof.Proof.Mask

noncomputable section

namespace Cert.Algebra

open Idealize.ShloMosaic Cert.Spec

/-- On real-valued arguments with every category word in 0..63 the two programs' results are one number at every entry:
    the mask decisions agree, and where the mask is clear the logits are sums of the same activations times the same
    weights. -/
theorem kernelFn_eq_refFn (x : Fin 16384 → Fin 2048 → EReal) (W : Fin 2048 → Fin 512 → EReal) (b g be : Fin 512 → EReal)
    (Wc : Fin 512 → Fin 125 → EReal) (bc : Fin 125 → EReal) (m2 : Fin 64 → Fin 125 → BitVec 1) (ct : Fin 16384 → BitVec 32)
    (hx : ∀ r d, ∃ v : ℝ, x r d = (v : EReal)) (hW : ∀ d k, ∃ v : ℝ, W d k = (v : EReal)) (hb : ∀ k, ∃ v : ℝ, b k = (v : EReal))
    (hg : ∀ k, ∃ v : ℝ, g k = (v : EReal)) (hbe : ∀ k, ∃ v : ℝ, be k = (v : EReal))
    (hWc : ∀ k j, ∃ v : ℝ, Wc k j = (v : EReal)) (hbc : ∀ j, ∃ v : ℝ, bc j = (v : EReal))
    (hct : ∀ r, 0 ≤ (ct r).toInt ∧ (ct r).toInt < 64) (r : Fin 16384) (j : Fin 125) :
    kernelFn x W b g be Wc bc m2 ct r j = refFn x W b g be Wc bc m2 ct r j := by
  obtain ⟨h', hh⟩ := Cert.Sums.fc_real x W b hx hW hb
  have hfc : fc x W b = fun r k => (h' r k : EReal) := funext fun r => funext fun k => hh r k
  unfold kernelFn refFn kernelOut
  rw [hfc]
  by_cases hm : m2 (refRow (ct r)) j = 1#1
  · rw [if_pos ((Cert.Mask.mask_iff ct m2 hct r j).mpr hm), if_pos hm]
  · rw [if_neg (fun h => hm ((Cert.Mask.mask_iff ct m2 hct r j).mp h)), if_neg hm]
    unfold klogits rlogits
    refine congrArg (fun s => s + bc j) (Finset.sum_congr rfl fun k _ => ?_)
    rw [Cert.Norm.kact_eq_ract h' _ _ g be (Cert.Sums.tot_psum h') (Cert.Sums.tot_psumsq h') hg hbe r k]

end Cert.Algebra

end
-- ==== Proof.lean ====
/-
  The certificate's claims, assembled.

  The kernel program runs in two stages.  Stage one computes the first linear layer h = x·W + b block by block and, for
  each half of the batch, accumulates the column sums and the column sums of squares of h into 8 equal rows of a 16-row
  table.  Stage two adds the 16 rows, scales by 1/8, forms mean and variance E[h²] − mean² (cut off below at 0), folds the
  batch normalisation into one affine map, rectifies, applies the second linear layer, and writes −100 where the mask
  table's row for the row's category is set, the row chosen by a sum of indicators over the 64 categories.

  The reference computes the batch mean and the mean squared deviation directly, normalises, rectifies, applies the second
  layer and masks by reading the mask table's row at the category word.

  Over the reals the two agree: the halves' partial sums add up to the batch sums; E[h²] − mean² is the mean squared
  deviation, which is not negative; h·s + (β − mean·s) = (h − mean)·s + β with s = rsqrt(var+ε)·γ; and for a category
  word in 0..63 the indicator sum picks exactly the row the reference reads.  The last point is why the precondition
  bounds the category words: outside 0..63 the reference wraps and clamps the word while no indicator matches.
  Finiteness of the float arguments is what lets the identities be taken over the reals.

  Modules: Spec (both results as functions of the arguments), Region0 and Region1 (what each stage leaves in its output
  arrays), Glue (the program's last contents at the result buffer is the kernel function of the launch arguments),
  RunNamed (the program's run with the result named), RefValue (the reference's result is the reference function),
  PreFacts (the precondition read entry by entry), Algebra (the two functions agree).
-/
import proofs.«426521_j8065948582254_3_alg».proof.Defs
import proofs.«426521_j8065948582254_3_alg».proof.Proof.Gen.Kernel
import proofs.«426521_j8065948582254_3_alg».proof.Proof.Gen.Kernel.Skeleton
import proofs.«426521_j8065948582254_3_alg».proof.Proof.Gen.Kernel.Launch
import proofs.«426521_j8065948582254_3_alg».proof.Proof.Gen.Kernel.Points
import proofs.«426521_j8065948582254_3_alg».proof.Proof.Gen.Kernel.Frame
import proofs.«426521_j8065948582254_3_alg».proof.Proof.Gen.KernelIdeal
import proofs.«426521_j8065948582254_3_alg».proof.Proof.Gen.KernelIdeal.Skeleton
import proofs.«426521_j8065948582254_3_alg».proof.Proof.Gen.KernelIdeal.Launch
import proofs.«426521_j8065948582254_3_alg».proof.Proof.Gen.KernelIdeal.Points
import proofs.«426521_j8065948582254_3_alg».proof.Proof.Gen.KernelIdeal.Frame
import proofs.«426521_j8065948582254_3_alg».proof.Proof.Gen.ReferenceIdeal
import proofs.«426521_j8065948582254_3_alg».proof.Proof.Gen.ReferenceIdeal.Run
import proofs.«426521_j8065948582254_3_alg».proof.Proof.Gen.ReferenceIdeal.Read
import proofs.«426521_j8065948582254_3_alg».proof.Proof.Gen.Pre_finite_inputs
import proofs.«426521_j8065948582254_3_alg».proof.Proof.Spec
import proofs.«426521_j8065948582254_3_alg».proof.Proof.RunNamed
import proofs.«426521_j8065948582254_3_alg».proof.Proof.Glue
import proofs.«426521_j8065948582254_3_alg».proof.Proof.RefValue
import proofs.«426521_j8065948582254_3_alg».proof.Proof.PreFacts
import proofs.«426521_j8065948582254_3_alg».proof.Proof.Algebra
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs and keeps its arguments: its generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments: its generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the ideal pass: widening a value just narrowed to bf16 gives the value back, at the extended reals. -/
theorem preserves : Cert.preserves_Kernel_KernelIdeal := IdealRules.truncf_extf.statement _ .f32 .bf16

/-- The two idealized programs, run from memories that agree on the arguments, end with the same result array: the kernel
    program's is the kernel function of the arguments, the reference's the reference function, and under the precondition
    the two functions agree at every entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- the kernel function of the launch arguments, as the result array
  refine ⟨fun c => (fun (i : Cert.KernelIdeal.S16384x125.Idx) => Cert.Spec.kernelFn
      (fun r d => m ((c.tc : Thread Cert.KernelIdeal.nD Cert.KernelIdeal.τ).loc Cert.KernelIdeal.main_arg0) (ix2 r d)) (fun d k => m ((c.tc : Thread Cert.KernelIdeal.nD Cert.KernelIdeal.τ).loc Cert.KernelIdeal.main_arg3) (ix2 d k))
      (fun k => m ((c.tc : Thread Cert.KernelIdeal.nD Cert.KernelIdeal.τ).loc Cert.KernelIdeal.main_arg4) (ix1 k)) (fun k => m ((c.tc : Thread Cert.KernelIdeal.nD Cert.KernelIdeal.τ).loc Cert.KernelIdeal.main_arg5) (ix1 k))
      (fun k => m ((c.tc : Thread Cert.KernelIdeal.nD Cert.KernelIdeal.τ).loc Cert.KernelIdeal.main_arg6) (ix1 k)) (fun k j => m ((c.tc : Thread Cert.KernelIdeal.nD Cert.KernelIdeal.τ).loc Cert.KernelIdeal.main_arg7) (ix2 k j))
      (fun j => m ((c.tc : Thread Cert.KernelIdeal.nD Cert.KernelIdeal.τ).loc Cert.KernelIdeal.main_arg8) (ix1 j)) (fun q j => m ((c.tc : Thread Cert.KernelIdeal.nD Cert.KernelIdeal.τ).loc Cert.KernelIdeal.main_arg2) (ix2 q j))
      (fun r => m ((c.tc : Thread Cert.KernelIdeal.nD Cert.KernelIdeal.τ).loc Cert.KernelIdeal.main_arg1) (ix1 r)) (i 0) (i 1)), ?_, ?_⟩
  · refine (θ_run Cert.KernelIdeal.defs _ _).mono (fun r h c => ⟨(h c).1.trans ?_, (h c).2⟩)
      (Cert.KernelIdeal.RunNamed.run_named (F := Ideal) m ρ)
    funext (i : Cert.KernelIdeal.S16384x125.Idx)
    obtain ⟨p, q, rfl⟩ : ∃ (p : Fin 16384) (q : Fin 125), i = ix2 p q := ⟨i 0, i 1, eq_ix2 i⟩
    exact Cert.Glue.kernel_value m ρ c p q
  · refine (θ_run Cert.ReferenceIdeal.defs _ _).mono (fun r h c => ⟨(h c).1.trans ?_, (h c).2⟩)
      (Cert.ReferenceIdeal.Value.run (F := Ideal) m' ρ')
    obtain ⟨f0, f3, f4, f5, f6, f7, f8, f1⟩ := Cert.PreFacts.of_pre _ _ _ _ _ _ _ _ _ (hpre c)
    rw [Cert.ReferenceIdeal.Read.val_main_v41_eq]
    funext (i : Cert.ReferenceIdeal.S16384x125.Idx)
    obtain ⟨p, q, rfl⟩ : ∃ (p : Fin 16384) (q : Fin 125), i = ix2 p q := ⟨i 0, i 1, eq_ix2 i⟩
    refine (Cert.RefValue.ref_value _ _ _ _ _ _ _ _ _ p q).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.Algebra.kernelFn_eq_refFn _ _ _ _ _ _ _ _ _ (fun r d => f0 _) (fun d k => f3 _) (fun k => f4 _) (fun k => f5 _)
      (fun k => f6 _) (fun k j => f7 _) (fun j => f8 _) (fun r => f1 _) p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
